-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x64 : Shape := ⟨3, ![16, 1024, 64]⟩
abbrev S16x1024x1024 : Shape := ⟨3, ![16, 1024, 1024]⟩
abbrev S4x64x64 : Shape := ⟨3, ![4, 64, 64]⟩
abbrev S128 : Shape := ⟨1, ![128]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x1024x64 .f32) (main_arg1 : IVec S16x1024x1024 32) (main_arg2 : FVec F S4x64x64 .f32) (main_arg3 : FVec F S4x64x64 .f32) (main_arg4 : FVec F S128 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64x64 .f32 := Host.absf main_arg3
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x1024x64 : Shape := ⟨3, ![16, 1024, 64]⟩
abbrev S16x1024x1024 : Shape := ⟨3, ![16, 1024, 1024]⟩
abbrev S4x64x64 : Shape := ⟨3, ![4, 64, 64]⟩
abbrev S128 : Shape := ⟨1, ![128]⟩
abbrev S16x1024x128 : Shape := ⟨3, ![16, 1024, 128]⟩
abbrev S1x1024x1024 : Shape := ⟨3, ![1, 1024, 1024]⟩
abbrev S1x1024x64 : Shape := ⟨3, ![1, 1024, 64]⟩
abbrev S1x1024x128 : Shape := ⟨3, ![1, 1024, 128]⟩
abbrev S1024x64 : Shape := ⟨2, ![1024, 64]⟩
abbrev S1024x1024 : Shape := ⟨2, ![1024, 1024]⟩
abbrev S1x64x64 : Shape := ⟨3, ![1, 64, 64]⟩
abbrev S64x64 : Shape := ⟨2, ![64, 64]⟩
abbrev S1024x128 : Shape := ⟨2, ![1024, 128]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S16x1024x64, .f32⟩
  | .hbm, ⟨1, _⟩ => ⟨S16x1024x1024, .i32⟩
  | .hbm, ⟨2, _⟩ => ⟨S4x64x64, .f32⟩
  | .hbm, ⟨3, _⟩ => ⟨S4x64x64, .f32⟩
  | .hbm, ⟨4, _⟩ => ⟨S128, .f32⟩
  | .hbm, ⟨5, _⟩ => ⟨S16x1024x128, .f32⟩
  | .local _ .vmem, ⟨0, _⟩ => ⟨S1x1024x1024, .i32⟩
  | .local _ .vmem, ⟨1, _⟩ => ⟨S1x1024x1024, .i32⟩
  | .local _ .vmem, ⟨2, _⟩ => ⟨S1x1024x64, .f32⟩
  | .local _ .vmem, ⟨3, _⟩ => ⟨S1x1024x64, .f32⟩
  | .local _ .vmem, ⟨4, _⟩ => ⟨S4x64x64, .f32⟩
  | .local _ .vmem, ⟨5, _⟩ => ⟨S4x64x64, .f32⟩
  | .local _ .vmem, ⟨6, _⟩ => ⟨S128, .f32⟩
  | .local _ .vmem, ⟨7, _⟩ => ⟨S1x1024x128, .f32⟩
  | .local _ .vmem, ⟨8, _⟩ => ⟨S1x1024x128, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  natLt_1_32 : 1 < 32
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  transposes_S64x64_p1_0_S64x64 : S64x64.Transposes [1, 0] S64x64
  inb_S4x64x64_S1x64x64_1_0_0 : ∀ a, (![1, 0, 0] : Fin 3 → Nat) a + S1x64x64.size a ≤ S4x64x64.size a
  inb_S4x64x64_S1x64x64_2_0_0 : ∀ a, (![2, 0, 0] : Fin 3 → Nat) a + S1x64x64.size a ≤ S4x64x64.size a
  inb_S4x64x64_S1x64x64_3_0_0 : ∀ a, (![3, 0, 0] : Fin 3 → Nat) a + S1x64x64.size a ≤ S4x64x64.size a
  concatenates_S1024x64_S1024x64_S1024x128_d1 : Shape.Concatenates [S1024x64, S1024x64] S1024x128 1
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x1024_S1024x64_S1024x64_1_0_0_1_n_n_wf : DotDims.WF S1024x1024 S1024x64 S1024x64 [1] [0] [0] [1] [] []
  dot_S1024x1024_S1024x64_S1024x64_0_0_1_1_n_n_wf : DotDims.WF S1024x1024 S1024x64 S1024x64 [0] [0] [1] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .i32 = 32 ∨ (Rect.block (s := S16x1024x1024) S1x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .f32 = 32 ∨ (Rect.block (s := S16x1024x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S4x64x64.size a
  hwx0_2 : ∀ i : grid0.Coords, EltTy.bits .f32 = 32 ∨ (Rect.block (s := S4x64x64) S4x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64x64.size a ≤ S4x64x64.size a
  hwx0_3 : ∀ i : grid0.Coords, EltTy.bits .f32 = 32 ∨ (Rect.block (s := S4x64x64) S4x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S16x1024x128.size a
  hwx0_5 : ∀ i : grid0.Coords, EltTy.bits .f32 = 32 ∨ (Rect.block (s := S16x1024x128) S1x1024x128.size (cc0_transform_5 i) (hinb0_5 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x64_S1024x64_0_0_1_1_n_n : DotDims S1024x1024 S1024x64 S1024x64 where
  lhsContracting := [0]
  rhsContracting := [0]
  lhsNonContracting := [1]
  rhsNonContracting := [1]
  lhsBatch := []
  rhsBatch := []
  wf := dot_S1024x1024_S1024x64_S1024x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x64 : Shape := ⟨3, ![16, 1024, 64]⟩
abbrev S16x1024x1024 : Shape := ⟨3, ![16, 1024, 1024]⟩
abbrev S4x64x64 : Shape := ⟨3, ![4, 64, 64]⟩
abbrev S128 : Shape := ⟨1, ![128]⟩
abbrev S_ : Shape := ⟨0, ![]⟩
abbrev S1x64x64 : Shape := ⟨3, ![1, 64, 64]⟩
abbrev S64x64 : Shape := ⟨2, ![64, 64]⟩
abbrev S16x1024x128 : Shape := ⟨3, ![16, 1024, 128]⟩
abbrev S1x1x128 : Shape := ⟨3, ![1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S16x1024x1024, .i32⟩
  | .hbm, ⟨2, _⟩ => ⟨S4x64x64, .f32⟩
  | .hbm, ⟨3, _⟩ => ⟨S4x64x64, .f32⟩
  | .hbm, ⟨4, _⟩ => ⟨S128, .f32⟩
  | .hbm, ⟨5, _⟩ => ⟨S_, .f32⟩
  | .hbm, ⟨6, _⟩ => ⟨S16x1024x64, .f32⟩
  | .hbm, ⟨7, _⟩ => ⟨S_, .i32⟩
  | .hbm, ⟨8, _⟩ => ⟨S16x1024x1024, .i32⟩
  | .hbm, ⟨9, _⟩ => ⟨S16x1024x1024, .i1⟩
  | .hbm, ⟨10, _⟩ => ⟨S16x1024x1024, .f32⟩
  | .hbm, ⟨11, _⟩ => ⟨S16x1024x64, .f32⟩
  | .hbm, ⟨12, _⟩ => ⟨S1x64x64, .f32⟩
  | .hbm, ⟨13, _⟩ => ⟨S64x64, .f32⟩
  | .hbm, ⟨14, _⟩ => ⟨S16x1024x64, .f32⟩
  | .hbm, ⟨15, _⟩ => ⟨S16x1024x64, .f32⟩
  | .hbm, ⟨16, _⟩ => ⟨S_, .i32⟩
  | .hbm, ⟨17, _⟩ => ⟨S16x1024x1024, .i32⟩
  | .hbm, ⟨18, _⟩ => ⟨S16x1024x1024, .i1⟩
  | .hbm, ⟨19, _⟩ => ⟨S16x1024x1024, .f32⟩
  | .hbm, ⟨20, _⟩ => ⟨S16x1024x64, .f32⟩
  | .hbm, ⟨21, _⟩ => ⟨S1x64x64, .f32⟩
  | .hbm, ⟨22, _⟩ => ⟨S64x64, .f32⟩
  | .hbm, ⟨23, _⟩ => ⟨S16x1024x64, .f32⟩
  | .hbm, ⟨24, _⟩ => ⟨S16x1024x64, .f32⟩
  | .hbm, ⟨25, _⟩ => ⟨S_, .i32⟩
  | .hbm, ⟨26, _⟩ => ⟨S16x1024x1024, .i32⟩
  | .hbm, ⟨27, _⟩ => ⟨S16x1024x1024, .i1⟩
  | .hbm, ⟨28, _⟩ => ⟨S16x1024x1024, .f32⟩
  | .hbm, ⟨29, _⟩ => ⟨S16x1024x64, .f32⟩
  | .hbm, ⟨30, _⟩ => ⟨S1x64x64, .f32⟩
  | .hbm, ⟨31, _⟩ => ⟨S64x64, .f32⟩
  | .hbm, ⟨32, _⟩ => ⟨S16x1024x64, .f32⟩
  | .hbm, ⟨33, _⟩ => ⟨S16x1024x64, .f32⟩
  | .hbm, ⟨34, _⟩ => ⟨S_, .i32⟩
  | .hbm, ⟨35, _⟩ => ⟨S16x1024x1024, .i32⟩
  | .hbm, ⟨36, _⟩ => ⟨S16x1024x1024, .i1⟩
  | .hbm, ⟨37, _⟩ => ⟨S16x1024x1024, .f32⟩
  | .hbm, ⟨38, _⟩ => ⟨S16x1024x64, .f32⟩
  | .hbm, ⟨39, _⟩ => ⟨S1x64x64, .f32⟩
  | .hbm, ⟨40, _⟩ => ⟨S64x64, .f32⟩
  | .hbm, ⟨41, _⟩ => ⟨S16x1024x64, .f32⟩
  | .hbm, ⟨42, _⟩ => ⟨S16x1024x64, .f32⟩
  | .hbm, ⟨43, _⟩ => ⟨S16x1024x1024, .i32⟩
  | .hbm, ⟨44, _⟩ => ⟨S_, .f32⟩
  | .hbm, ⟨45, _⟩ => ⟨S16x1024x64, .f32⟩
  | .hbm, ⟨46, _⟩ => ⟨S_, .i32⟩
  | .hbm, ⟨47, _⟩ => ⟨S16x1024x1024, .i32⟩
  | .hbm, ⟨48, _⟩ => ⟨S16x1024x1024, .i1⟩
  | .hbm, ⟨49, _⟩ => ⟨S16x1024x1024, .f32⟩
  | .hbm, ⟨50, _⟩ => ⟨S16x1024x64, .f32⟩
  | .hbm, ⟨51, _⟩ => ⟨S1x64x64, .f32⟩
  | .hbm, ⟨52, _⟩ => ⟨S64x64, .f32⟩
  | .hbm, ⟨53, _⟩ => ⟨S16x1024x64, .f32⟩
  | .hbm, ⟨54, _⟩ => ⟨S16x1024x64, .f32⟩
  | .hbm, ⟨55, _⟩ => ⟨S_, .i32⟩
  | .hbm, ⟨56, _⟩ => ⟨S16x1024x1024, .i32⟩
  | .hbm, ⟨57, _⟩ => ⟨S16x1024x1024, .i1⟩
  | .hbm, ⟨58, _⟩ => ⟨S16x1024x1024, .f32⟩
  | .hbm, ⟨59, _⟩ => ⟨S16x1024x64, .f32⟩
  | .hbm, ⟨60, _⟩ => ⟨S1x64x64, .f32⟩
  | .hbm, ⟨61, _⟩ => ⟨S64x64, .f32⟩
  | .hbm, ⟨62, _⟩ => ⟨S16x1024x64, .f32⟩
  | .hbm, ⟨63, _⟩ => ⟨S16x1024x64, .f32⟩
  | .hbm, ⟨64, _⟩ => ⟨S_, .i32⟩
  | .hbm, ⟨65, _⟩ => ⟨S16x1024x1024, .i32⟩
  | .hbm, ⟨66, _⟩ => ⟨S16x1024x1024, .i1⟩
  | .hbm, ⟨67, _⟩ => ⟨S16x1024x1024, .f32⟩
  | .hbm, ⟨68, _⟩ => ⟨S16x1024x64, .f32⟩
  | .hbm, ⟨69, _⟩ => ⟨S1x64x64, .f32⟩
  | .hbm, ⟨70, _⟩ => ⟨S64x64, .f32⟩
  | .hbm, ⟨71, _⟩ => ⟨S16x1024x64, .f32⟩
  | .hbm, ⟨72, _⟩ => ⟨S16x1024x64, .f32⟩
  | .hbm, ⟨73, _⟩ => ⟨S_, .i32⟩
  | .hbm, ⟨74, _⟩ => ⟨S16x1024x1024, .i32⟩
  | .hbm, ⟨75, _⟩ => ⟨S16x1024x1024, .i1⟩
  | .hbm, ⟨76, _⟩ => ⟨S16x1024x1024, .f32⟩
  | .hbm, ⟨77, _⟩ => ⟨S16x1024x64, .f32⟩
  | .hbm, ⟨78, _⟩ => ⟨S1x64x64, .f32⟩
  | .hbm, ⟨79, _⟩ => ⟨S64x64, .f32⟩
  | .hbm, ⟨80, _⟩ => ⟨S16x1024x64, .f32⟩
  | .hbm, ⟨81, _⟩ => ⟨S16x1024x64, .f32⟩
  | .hbm, ⟨82, _⟩ => ⟨S16x1024x128, .f32⟩
  | .hbm, ⟨83, _⟩ => ⟨S1x1x128, .f32⟩
  | .hbm, ⟨84, _⟩ => ⟨S16x1024x128, .f32⟩
  | .hbm, ⟨85, _⟩ => ⟨S16x1024x128, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]

class Facts₀ : Prop where
  bcast_S_S16x1024x64 : S_.BroadcastsInDim S16x1024x64 (![] : Fin 0 → Fin S16x1024x64.rank)
  bcast_S_S16x1024x1024 : S_.BroadcastsInDim S16x1024x1024 (![] : Fin 0 → Fin S16x1024x1024.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  transposes_S16x1024x1024_S16x1024x1024_0_2_1 : S16x1024x1024.Transposes [0, 2, 1] S16x1024x1024
  concatenates_S16x1024x64_S16x1024x64_S16x1024x128_d2 : Shape.Concatenates [S16x1024x64, S16x1024x64] S16x1024x128 2
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  dot_S16x1024x1024_S16x1024x64_S16x1024x64_2_1_1_2_0_0_wf : DotDims.WF S16x1024x1024 S16x1024x64 S16x1024x64 [2] [1] [1] [2] [0] [0]
  dot_S16x1024x64_S64x64_S16x1024x64_2_1_01_0_n_n_wf : DotDims.WF S16x1024x64 S64x64 S16x1024x64 [2] [1] [0, 1] [0] [] []

variable [Facts₀]

def dot_S16x1024x1024_S16x1024x64_S16x1024x64_2_1_1_2_0_0 : DotDims S16x1024x1024 S16x1024x64 S16x1024x64 where
  lhsContracting := [2]
  rhsContracting := [1]
  lhsNonContracting := [1]
  rhsNonContracting := [2]
  lhsBatch := [0]
  rhsBatch := [0]
  wf := dot_S16x1024x1024_S16x1024x64_S16x1024x64_2_1_1_2_0_0_wf
def dot_S16x1024x64_S64x64_S16x1024x64_2_1_01_0_n_n : DotDims S16x1024x64 S64x64 S16x1024x64 where
  lhsContracting := [2]
  rhsContracting := [1]
  lhsNonContracting := [0, 1]
  rhsNonContracting := [0]
  lhsBatch := []
  rhsBatch := []
  wf := dot_S16x1024x64_S64x64_S16x1024x64_2_1_01_0_n_n_wf

class Facts : Prop extends Facts₀ where

variable [Facts]
-- ==== Proof.EdgeMsgSpec.lean ====
/-
  What the edge-class message layer computes, as one function of its five inputs, over the extended reals.

  For one graph (one batch entry) with node features `x : node → channel → EReal` and an integer edge label
  `a p q` on every ordered pair of nodes, class `c` (labels 1 … 4; label 0 is "no edge") contributes
    incoming:  Σ_e (Σ_q [a p q = c] · x q e) · W_in  c d e      to node p, output channel d,
    outgoing:  Σ_e (Σ_q [a q p = c] · x q e) · W_out c d e      to node p, output channel d,
  the four classes are added in order, the two messages are laid side by side (channels 0 … 63 incoming,
  64 … 127 outgoing) and a bias is added per output channel. The indicator `[a = c]` is the one-bit comparison
  read as an unsigned integer, so it is the extended real 0 or 1.
-/
import Idealize.ShloMosaic.PureOps.Ideal
import Idealize.ShloMosaic.Lib.ValueIdx

noncomputable section

open scoped BigOperators

namespace Cert.EdgeMsg

open Idealize.ShloMosaic Idealize.ShloMosaic.ValueIdx

/-- The indicator of "label `a` is class `cls`" as an extended real: the comparison bit read unsigned. -/
def edge (a cls : BitVec 32) : EReal := FloatOps.uitofp (F := Ideal) .f32 (IntOp.cmpi .eq a cls)

/-- Features gathered along the edges of class `cls` that LEAVE row node `p` (labels read as `adj p q`). -/
def aggIn (adj : Fin 1024 → Fin 1024 → BitVec 32) (x : Fin 1024 → Fin 64 → EReal) (cls : BitVec 32)
    (p : Fin 1024) (e : Fin 64) : EReal :=
  ∑ q : Fin 1024, edge (adj p q) cls * x q e

/-- Features gathered along the edges of class `cls` read the other way round (labels read as `adj q p`). -/
def aggOut (adj : Fin 1024 → Fin 1024 → BitVec 32) (x : Fin 1024 → Fin 64 → EReal) (cls : BitVec 32)
    (p : Fin 1024) (e : Fin 64) : EReal :=
  ∑ q : Fin 1024, edge (adj q p) cls * x q e

/-- One class's gathered features through that class's weight matrix: `Σ_e g e · W c d e`. -/
def through (g : Fin 64 → EReal) (W : Fin 4 → Fin 64 → Fin 64 → EReal) (c : Fin 4) (d : Fin 64) : EReal :=
  ∑ e : Fin 64, g e * W c d e

/-- The four classes' contributions added in order (class labels 1, 2, 3, 4), for gathered features `g cls`. -/
def msg (g : BitVec 32 → Fin 64 → EReal) (W : Fin 4 → Fin 64 → Fin 64 → EReal) (d : Fin 64) : EReal :=
  ((through (g 1#32) W 0 d + through (g 2#32) W 1 d) + through (g 3#32) W 2 d) + through (g 4#32) W 3 d

/-- One node's 128 output channels: the incoming message, then the outgoing one, each plus the bias. -/
def row (adj : Fin 1024 → Fin 1024 → BitVec 32) (x : Fin 1024 → Fin 64 → EReal)
    (Win Wout : Fin 4 → Fin 64 → Fin 64 → EReal) (bias : Fin 128 → EReal) (p : Fin 1024) (col : Fin 128) : EReal :=
  (if h : col.val < 64 then msg (fun cls => aggIn adj x cls p) Win ⟨col.val, h⟩
    else msg (fun cls => aggOut adj x cls p) Wout ⟨col.val - 64, by have := col.isLt; omega⟩) + bias col

/-- The weights as a function of class, output channel and input channel. -/
abbrev wOf (W : (⟨3, ![4, 64, 64]⟩ : Shape).Idx → EReal) : Fin 4 → Fin 64 → Fin 64 → EReal := fun c d e => W (ix3 c d e)

/-- The bias as a function of the output channel. -/
abbrev bOf (b : (⟨1, ![128]⟩ : Shape).Idx → EReal) : Fin 128 → EReal := fun col => b (ix1 col)

/-- THE WHOLE RESULT: entry `(g, p, col)` is graph `g`'s row `p`, channel `col`. -/
def outArr (feat : (⟨3, ![16, 1024, 64]⟩ : Shape).Idx → EReal) (adj : (⟨3, ![16, 1024, 1024]⟩ : Shape).Idx → BitVec 32)
    (Win Wout : (⟨3, ![4, 64, 64]⟩ : Shape).Idx → EReal) (b : (⟨1, ![128]⟩ : Shape).Idx → EReal) :
    (⟨3, ![16, 1024, 128]⟩ : Shape).Idx → EReal := fun i =>
  row (fun p q => adj (ix3 (i 0) p q)) (fun q e => feat (ix3 (i 0) q e)) (wOf Win) (wOf Wout) (bOf b) (i 1) (i 2)

/-- ONE GRAPH's result from that graph's label block and feature block (leading axis of extent one). -/
def outBlk (adjB : (⟨3, ![1, 1024, 1024]⟩ : Shape).Idx → BitVec 32) (featB : (⟨3, ![1, 1024, 64]⟩ : Shape).Idx → EReal)
    (Win Wout : (⟨3, ![4, 64, 64]⟩ : Shape).Idx → EReal) (b : (⟨1, ![128]⟩ : Shape).Idx → EReal) :
    (⟨3, ![1, 1024, 128]⟩ : Shape).Idx → EReal := fun y =>
  row (fun p q => adjB (ix3 0 p q)) (fun q e => featB (ix3 0 q e)) (wOf Win) (wOf Wout) (bOf b) (y 1) (y 2)

end Cert.EdgeMsg

end
-- ==== Proof.KernelDots.lean ====
/-
  The three matrix products of the message kernel, read at one output entry, over the extended reals.

  Into a zero accumulator a product is the plain sum over its one contracted axis:
    rows × columns        (label indicator [p, q] against features [q, e]):  Σ_q L (p, q) · R (q, e)
    rows × rows           (the SAME indicator contracted along its first axis):  Σ_q L (q, p) · R (q, e)
    gathered × weights    ([p, e] against the transposed weights [e, d]):  Σ_e L (p, e) · R (e, d).
  Each is the library's sum over the contraction index set, re-indexed by that set's one coordinate.
-/
import proofs.«175935_j73323681677623_1_alg».proof.Proof.Gen.KernelIdeal
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.TcCoe Idealize.ShloMosaic.ValueIdx

/-! ## Indicator rows against features: contraction along the indicator's second axis -/

theorem lhs_rowcol_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_rowcol_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_rowcol_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_rowcol_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Entry `(p, e)` of the product contracting the left factor's columns with the right factor's rows. -/
theorem dot_rowcol_apply (L : FVec Ideal S1024x1024 .bf16) (R : FVec Ideal S1024x64 .bf16) (p : Fin 1024) (e : Fin 64) :
    matmul dot_S1024x1024_S1024x64_S1024x64_1_0_0_1_n_n none L R (constant S1024x64 .f32 0x00000000#32) (ix2 p e)
      = ∑ q : Fin 1024, L (ix2 p q) * R (ix2 q e) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p e) ((ValueIdx.contrEquiv1 dot_S1024x1024_S1024x64_S1024x64_1_0_0_1_n_n 1024 rfl rfl).symm k) = ix2 p k := funext fun a => Fin.ext (by
    match a with
    | ⟨0, _⟩ => exact lhs_rowcol_0 _ _
    | ⟨1, _⟩ => exact (lhs_rowcol_1 _ _).trans hk)
  have er : dot_S1024x1024_S1024x64_S1024x64_1_0_0_1_n_n.rhsIdx (ix2 p e) ((ValueIdx.contrEquiv1 dot_S1024x1024_S1024x64_S1024x64_1_0_0_1_n_n 1024 rfl rfl).symm k) = ix2 k e := funext fun a => Fin.ext (by
    match a with
    | ⟨0, _⟩ => exact (rhs_rowcol_0 _ _).trans hk
    | ⟨1, _⟩ => exact rhs_rowcol_1 _ _)
  rw [el, er]

/-! ## Indicator columns against features: contraction along the indicator's FIRST axis -/

theorem lhs_rowrow_0 (i : S1024x64.Idx) (q : dot_S1024x1024_S1024x64_S1024x64_0_0_1_1_n_n.contr.Idx) :
    (dot_S1024x1024_S1024x64_S1024x64_0_0_1_1_n_n.lhsIdx i q 0).val = (q ⟨0, by decide⟩).val :=
  dot_S1024x1024_S1024x64_S1024x64_0_0_1_1_n_n.lhsIdx_val_of_single rfl i q
theorem lhs_rowrow_1 (i : S1024x64.Idx) (q : dot_S1024x1024_S1024x64_S1024x64_0_0_1_1_n_n.contr.Idx) :
    (dot_S1024x1024_S1024x64_S1024x64_0_0_1_1_n_n.lhsIdx i q 1).val = (i 0).val := by
  unfold DotDims.lhsIdx
  rw [dif_neg (show ¬(1 : Fin S1024x1024.rank) ∈ dot_S1024x1024_S1024x64_S1024x64_0_0_1_1_n_n.lhsBatch by decide), dif_pos (show (1 : Fin S1024x1024.rank) ∈ dot_S1024x1024_S1024x64_S1024x64_0_0_1_1_n_n.lhsNonContracting by decide)]
  rfl
theorem rhs_rowrow_0 (i : S1024x64.Idx) (q : dot_S1024x1024_S1024x64_S1024x64_0_0_1_1_n_n.contr.Idx) :
    (dot_S1024x1024_S1024x64_S1024x64_0_0_1_1_n_n.rhsIdx i q 0).val = (q ⟨0, by decide⟩).val :=
  dot_S1024x1024_S1024x64_S1024x64_0_0_1_1_n_n.rhsIdx_val_of_single rfl i q
theorem rhs_rowrow_1 (i : S1024x64.Idx) (q : dot_S1024x1024_S1024x64_S1024x64_0_0_1_1_n_n.contr.Idx) :
    (dot_S1024x1024_S1024x64_S1024x64_0_0_1_1_n_n.rhsIdx i q 1).val = (i 1).val := by
  unfold DotDims.rhsIdx
  rw [dif_neg (show ¬(1 : Fin S1024x64.rank) ∈ dot_S1024x1024_S1024x64_S1024x64_0_0_1_1_n_n.rhsBatch by decide), dif_pos (show (1 : Fin S1024x64.rank) ∈ dot_S1024x1024_S1024x64_S1024x64_0_0_1_1_n_n.rhsNonContracting by decide)]
  rfl

/-- Entry `(p, e)` of the product contracting BOTH factors along their rows: the left factor is read transposed. -/
theorem dot_rowrow_apply (L : FVec Ideal S1024x1024 .bf16) (R : FVec Ideal S1024x64 .bf16) (p : Fin 1024) (e : Fin 64) :
    matmul dot_S1024x1024_S1024x64_S1024x64_0_0_1_1_n_n none L R (constant S1024x64 .f32 0x00000000#32) (ix2 p e)
      = ∑ q : Fin 1024, L (ix2 q p) * R (ix2 q e) := by
  simp only [matmul]
  rw [Ideal.matmul_constant_zero_apply, ← Equiv.sum_comp (ValueIdx.contrEquiv1 dot_S1024x1024_S1024x64_S1024x64_0_0_1_1_n_n 1024 rfl rfl).symm]
  refine Finset.sum_congr rfl fun k _ => ?_
  have hk := ValueIdx.contrEquiv1_symm_val dot_S1024x1024_S1024x64_S1024x64_0_0_1_1_n_n 1024 rfl rfl k
  have el : dot_S1024x1024_S1024x64_S1024x64_0_0_1_1_n_n.lhsIdx (ix2 p e) ((ValueIdx.contrEquiv1 dot_S1024x1024_S1024x64_S1024x64_0_0_1_1_n_n 1024 rfl rfl).symm k) = ix2 k p := funext fun a => Fin.ext (by
    match a with
    | ⟨0, _⟩ => exact (lhs_rowrow_0 _ _).trans hk
    | ⟨1, _⟩ => exact lhs_rowrow_1 _ _)
  have er : dot_S1024x1024_S1024x64_S1024x64_0_0_1_1_n_n.rhsIdx (ix2 p e) ((ValueIdx.contrEquiv1 dot_S1024x1024_S1024x64_S1024x64_0_0_1_1_n_n 1024 rfl rfl).symm k) = ix2 k e := funext fun a => Fin.ext (by
    match a with
    | ⟨0, _⟩ => exact (rhs_rowrow_0 _ _).trans hk
    | ⟨1, _⟩ => exact rhs_rowrow_1 _ _)
  rw [el, er]

/-! ## Gathered features against one class's (transposed) weights -/

theorem lhs_wt_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_wt_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_wt_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_wt_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- Entry `(p, d)` of gathered features `[p, e]` times a `[e, d]` matrix. -/
theorem dot_wt_apply (L : FVec Ideal S1024x64 .bf16) (R : FVec Ideal S64x64 .bf16) (p : Fin 1024) (d : Fin 64) :
    matmul dot_S1024x64_S64x64_S1024x64_1_0_0_1_n_n none L R (constant S1024x64 .f32 0x00000000#32) (ix2 p d)
      = ∑ e : Fin 64, L (ix2 p e) * R (ix2 e d) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 p d) ((ValueIdx.contrEquiv1 dot_S1024x64_S64x64_S1024x64_1_0_0_1_n_n 64 rfl rfl).symm k) = ix2 p k := funext fun a => Fin.ext (by
    match a with
    | ⟨0, _⟩ => exact lhs_wt_0 _ _
    | ⟨1, _⟩ => exact (lhs_wt_1 _ _).trans hk)
  have er : dot_S1024x64_S64x64_S1024x64_1_0_0_1_n_n.rhsIdx (ix2 p d) ((ValueIdx.contrEquiv1 dot_S1024x64_S64x64_S1024x64_1_0_0_1_n_n 64 rfl rfl).symm k) = ix2 k d := funext fun a => Fin.ext (by
    match a with
    | ⟨0, _⟩ => exact (rhs_wt_0 _ _).trans hk
    | ⟨1, _⟩ => exact rhs_wt_1 _ _)
  rw [el, er]

end Cert.KernelIdeal.Block

end
-- ==== Proof.KernelPieces.lean ====
/-
  The pieces of the message kernel's body, each read at one entry, over the extended reals.

  * the label indicator: the comparison bit, widened to 32 bits and read as a SIGNED integer, is the bit read unsigned
    (a widened bit is 0 or 1, never negative);
  * a graph's feature block and label block with their leading unit axis dropped;
  * one class's weight matrix: the class's slab of the weights, unit axis dropped, transposed;
  * the gathered features (a product with the indicator) and their image under a weight matrix (a second product),
    as the sums the specification names `aggIn`, `aggOut` and `through`.
  A change of float format is the identity on extended reals throughout.
-/
import proofs.«175935_j73323681677623_1_alg».proof.Proof.Gen.KernelIdeal.Skeleton
import proofs.«175935_j73323681677623_1_alg».proof.Proof.EdgeMsgSpec
import proofs.«175935_j73323681677623_1_alg».proof.Proof.KernelDots
import Idealize.ShloMosaic.Lib.Pipeline.Value
import Idealize.ShloMosaic.Lib.Pipeline.FrameBody
import Idealize.ShloMosaic.Lib.ValueIdx
import Idealize.ShloMosaic.Lib.ValueLayout

noncomputable section

open scoped BigOperators

namespace Cert.KernelIdeal.Block

open Cert.KernelIdeal Cert.KernelIdeal.Gen Idealize.ShloMosaic Idealize.ShloMosaic.TcCoe Idealize.ShloMosaic.ValueIdx Cert.EdgeMsg

/-! ## Words -/

/-- A bit widened with zeros and read signed is the bit read unsigned. -/
theorem sitofp_widened_bit (b : BitVec 1) :
    FloatOps.sitofp (F := Ideal) .f32 (b.setWidth 32) = FloatOps.uitofp (F := Ideal) .f32 b := by
  rcases BitVec.eq_zero_or_eq_one b with rfl | rfl <;> rfl

/-- The kernel's indicator array for class `cls`, at an entry: the specification's `edge`. -/
theorem indicator_apply (v : IVec S1024x1024 32) (cls : BitVec 32) (i : S1024x1024.Idx) :
    (truncf .bf16 (sitofp (F := Ideal) .f32 (extui 32 (cmpi .eq v (broadcast S1024x1024 cls)) natLt_1_32)) bitsLt_bf16_f32 : FVec Ideal S1024x1024 .bf16) i
      = edge (v i) cls :=
  sitofp_widened_bit _

/-! ## A graph's blocks with the unit axis dropped -/

/-- The label block as a matrix of labels. -/
abbrev adjOf (x : Vec Ideal S1x1024x1024 .i32) : Fin 1024 → Fin 1024 → BitVec 32 := fun p q => x (ix3 0 p q)
/-- The feature block as a matrix of extended reals. -/
abbrev featOf (x : Vec Ideal S1x1024x64 .f32) : Fin 1024 → Fin 64 → EReal := fun q e => x (ix3 0 q e)

theorem labels_apply (v3 : Vec Ideal S1x1024x1024 .i32) (p q : Fin 1024) :
    k0_pay3 (F := Ideal) v3 (ix2 p q) = adjOf v3 p q :=
  shapeCast_1ab_ab_apply v3 _ p q

theorem feats_apply (v0 : Vec Ideal S1x1024x64 .f32) (q : Fin 1024) (e : Fin 64) :
    k0_pay2 (F := Ideal) v0 (ix2 q e) = featOf v0 q e :=
  shapeCast_1ab_ab_apply v0 _ q e

/-! ## One class's weights -/

/-- A class's slab of the weights, unit axis dropped and transposed: entry `(e, d)` is the slab's `(0, d, e)`. -/
theorem weights_apply (w : Vec Ideal S1x64x64 .f32) (e d : Fin 64) :
    (transpose S64x64 [1, 0] (truncf .bf16 (shapeCast S64x64 w shapeCasts_S1x64x64_S64x64) bitsLt_bf16_f32 : FVec Ideal S64x64 .bf16) transposes_S64x64_p1_0_S64x64) (ix2 e d)
      = w (ix3 0 d e) := by
  rw [transpose_ix2_apply]
  exact shapeCast_1ab_ab_apply w _ d e

/-- Class `c`'s slab loaded from the whole weights, at `(0, d, e)`, is the weights at `(c, d, e)`. -/
theorem slab_apply (x : Vec Ideal S4x64x64 .f32) (c : Fin 4) (inb : ∀ a, (![c.val, 0, 0] : Fin 3 → Nat) a + S1x64x64.size a ≤ S4x64x64.size a) (d e : Fin 64) :
    View.ld x (Rect.unit (s := S4x64x64) ![c.val, 0, 0] S1x64x64.size inb) (ix3 0 d e) = wOf x c d e := by
  show x _ = x _
  refine congrArg x (funext fun a => Fin.ext ?_)
  match a with
  | ⟨0, _⟩ => show c.val + 1 * 0 = c.val; omega
  | ⟨1, _⟩ => show 0 + 1 * d.val = d.val; omega
  | ⟨2, _⟩ => show 0 + 1 * e.val = e.val; omega

/-! ## Gathered features, and their image under a class's weights -/

/-- The product of an indicator array with the features, rows against columns, is `aggIn`. -/
theorem gather_in (L : FVec Ideal S1024x1024 .bf16) (R : FVec Ideal S1024x64 .bf16)
    (adj : Fin 1024 → Fin 1024 → BitVec 32) (x : Fin 1024 → Fin 64 → EReal) (cls : BitVec 32)
    (hL : ∀ p q, L (ix2 p q) = edge (adj p q) cls) (hR : ∀ q e, R (ix2 q e) = x q e) (p : Fin 1024) (e : Fin 64) :
    matmul dot_S1024x1024_S1024x64_S1024x64_1_0_0_1_n_n none L R (constant S1024x64 .f32 0x00000000#32) (ix2 p e)
      = aggIn adj x cls p e := by
  rw [dot_rowcol_apply]
  exact Finset.sum_congr rfl fun q _ => by rw [hL, hR]

/-- The product contracting the indicator along its FIRST axis is `aggOut`. -/
theorem gather_out (L : FVec Ideal S1024x1024 .bf16) (R : FVec Ideal S1024x64 .bf16)
    (adj : Fin 1024 → Fin 1024 → BitVec 32) (x : Fin 1024 → Fin 64 → EReal) (cls : BitVec 32)
    (hL : ∀ p q, L (ix2 p q) = edge (adj p q) cls) (hR : ∀ q e, R (ix2 q e) = x q e) (p : Fin 1024) (e : Fin 64) :
    matmul dot_S1024x1024_S1024x64_S1024x64_0_0_1_1_n_n none L R (constant S1024x64 .f32 0x00000000#32) (ix2 p e)
      = aggOut adj x cls p e := by
  rw [dot_rowrow_apply]
  exact Finset.sum_congr rfl fun q _ => by rw [hL, hR]

/-- Gathered features `A` (format changed, which is the identity) times class `c`'s transposed weights is `through`. -/
theorem weigh (A : FVec Ideal S1024x64 .f32) (Wt : FVec Ideal S64x64 .bf16) (g : Fin 1024 → Fin 64 → EReal)
    (W : Fin 4 → Fin 64 → Fin 64 → EReal) (c : Fin 4)
    (hA : ∀ p e, A (ix2 p e) = g p e) (hW : ∀ e d, Wt (ix2 e d) = W c d e) (p : Fin 1024) (d : Fin 64) :
    matmul dot_S1024x64_S64x64_S1024x64_1_0_0_1_n_n none (truncf .bf16 A bitsLt_bf16_f32 : FVec Ideal S1024x64 .bf16) Wt (constant S1024x64 .f32 0x00000000#32) (ix2 p d)
      = through (g p) W c d := by
  rw [dot_wt_apply]
  exact Finset.sum_congr rfl fun e _ => by rw [truncf_apply, hA, hW]

end Cert.KernelIdeal.Block

end
-- ==== Proof.KernelSums.lean ====
/-
  What the message kernel's body leaves in its output block, as one function of the five input blocks: the
  specification's `outBlk`.

  The body handles the four edge classes one after the other. For each class it forms the indicator of the class in
  the label block, gathers features along it in both directions (two products with the same indicator), sends each
  gathered array through the class's weight matrix and adds the result to a running sum that starts from zero. The two
  running sums are laid side by side along the channel axis, the bias row is added to every node's row, and the result
  is stored over the whole output block.
-/
import proofs.«175935_j73323681677623_1_alg».proof.Proof.Gen.KernelIdeal.Frame
import proofs.«175935_j73323681677623_1_alg».proof.Proof.KernelPieces

noncomputable section

open scoped BigOperators

namespace Cert.KernelIdeal.Block

open Cert.KernelIdeal Cert.KernelIdeal.Gen Idealize.ShloMosaic Idealize.ShloMosaic.TcCoe Idealize.ShloMosaic.ValueIdx Cert.EdgeMsg

/-! ## The four indicator arrays -/

theorem ind1_apply (v3 : Vec Ideal S1x1024x1024 .i32) (p q : Fin 1024) :
    k0_pay4 (F := Ideal) v3 (ix2 p q) = edge (adjOf v3 p q) 1#32 :=
  (indicator_apply (k0_pay3 (F := Ideal) v3) 1#32 (ix2 p q)).trans (by rw [labels_apply])

theorem ind2_apply (v3 : Vec Ideal S1x1024x1024 .i32) (p q : Fin 1024) :
    k0_pay7 (F := Ideal) v3 (ix2 p q) = edge (adjOf v3 p q) 2#32 :=
  (indicator_apply (k0_pay3 (F := Ideal) v3) 2#32 (ix2 p q)).trans (by rw [labels_apply])

theorem ind3_apply (v4 : IVec S1024x1024 32) (i : S1024x1024.Idx) :
    k0_pay10 (F := Ideal) v4 i = edge (v4 i) 3#32 :=
  indicator_apply v4 3#32 i

theorem ind4_apply (v4 : IVec S1024x1024 32) (i : S1024x1024.Idx) :
    k0_pay13 (F := Ideal) v4 i = edge (v4 i) 4#32 :=
  indicator_apply v4 4#32 i

/-! ## Class 1: the running sums start from zero -/

/-- After class 1 the incoming sum is class 1's term alone (zero plus it). -/
theorem after1_in (v0 : Vec Ideal S1x1024x64 .f32) (v3 : Vec Ideal S1x1024x1024 .i32) (v14 : Vec Ideal S1x64x64 .f32)
    (W : Fin 4 → Fin 64 → Fin 64 → EReal) (hW : ∀ d e, v14 (ix3 0 d e) = W 0 d e) (p : Fin 1024) (d : Fin 64) :
    k0_pay5 (F := Ideal) v0 v3 v14 (ix2 p d) = through (aggIn (adjOf v3) (featOf v0) 1#32 p) W 0 d := by
  unfold k0_pay5
  dsimp only
  rw [addf_apply, broadcast_apply,
    weigh _ _ (aggIn (adjOf v3) (featOf v0) 1#32) W 0
      (fun p e => gather_in _ _ (adjOf v3) (featOf v0) 1#32 (ind1_apply v3) (feats_apply v0) p e)
      (fun e d => (weights_apply v14 e d).trans (hW d e)) p d]
  show Ideal.ofBits .f32 0x00000000#32 + _ = _
  rw [Ideal.ofBits_zero_f32, zero_add]

/-- After class 1 the outgoing sum is class 1's term alone. -/
theorem after1_out (v0 : Vec Ideal S1x1024x64 .f32) (v3 : Vec Ideal S1x1024x1024 .i32) (v17 : Vec Ideal S1x64x64 .f32)
    (W : Fin 4 → Fin 64 → Fin 64 → EReal) (hW : ∀ d e, v17 (ix3 0 d e) = W 0 d e) (p : Fin 1024) (d : Fin 64) :
    k0_pay6 (F := Ideal) v0 v3 v17 (ix2 p d) = through (aggOut (adjOf v3) (featOf v0) 1#32 p) W 0 d := by
  unfold k0_pay6
  dsimp only
  rw [addf_apply, broadcast_apply,
    weigh _ _ (aggOut (adjOf v3) (featOf v0) 1#32) W 0
      (fun p e => gather_out _ _ (adjOf v3) (featOf v0) 1#32 (ind1_apply v3) (feats_apply v0) p e)
      (fun e d => (weights_apply v17 e d).trans (hW d e)) p d]
  show Ideal.ofBits .f32 0x00000000#32 + _ = _
  rw [Ideal.ofBits_zero_f32, zero_add]

/-! ## Class 2's gathered features -/

theorem gathered2_in (v0 : Vec Ideal S1x1024x64 .f32) (v3 : Vec Ideal S1x1024x1024 .i32) (p : Fin 1024) (e : Fin 64) :
    k0_pay8 (F := Ideal) v0 v3 (ix2 p e) = aggIn (adjOf v3) (featOf v0) 2#32 p e :=
  gather_in _ _ (adjOf v3) (featOf v0) 2#32 (ind2_apply v3) (feats_apply v0) p e

theorem gathered2_out (v0 : Vec Ideal S1x1024x64 .f32) (v3 : Vec Ideal S1x1024x1024 .i32) (p : Fin 1024) (e : Fin 64) :
    k0_pay9 (F := Ideal) v0 v3 (ix2 p e) = aggOut (adjOf v3) (featOf v0) 2#32 p e :=
  gather_out _ _ (adjOf v3) (featOf v0) 2#32 (ind2_apply v3) (feats_apply v0) p e

/-! ## Classes 2 and 3 added -/

/-- The incoming sum after class 3, from the sum after class 1 (`t1`) and class 2's gathered features. -/
theorem after3_in (v2 : FVec Ideal S1024x64 .bf16) (v4 : IVec S1024x1024 32) (v23 v33 : FVec Ideal S1024x64 .f32)
    (v35 v56 : Vec Ideal S1x64x64 .f32) (adj : Fin 1024 → Fin 1024 → BitVec 32) (x : Fin 1024 → Fin 64 → EReal)
    (W : Fin 4 → Fin 64 → Fin 64 → EReal) (t1 : Fin 1024 → Fin 64 → EReal)
    (h4 : ∀ p q, v4 (ix2 p q) = adj p q) (h2 : ∀ q e, v2 (ix2 q e) = x q e) (h23 : ∀ p d, v23 (ix2 p d) = t1 p d)
    (h33 : ∀ p e, v33 (ix2 p e) = aggIn adj x 2#32 p e)
    (hW1 : ∀ d e, v35 (ix3 0 d e) = W 1 d e) (hW2 : ∀ d e, v56 (ix3 0 d e) = W 2 d e) (p : Fin 1024) (d : Fin 64) :
    k0_pay11 (F := Ideal) v2 v4 v23 v33 v35 v56 (ix2 p d)
      = (t1 p d + through (aggIn adj x 2#32 p) W 1 d) + through (aggIn adj x 3#32 p) W 2 d := by
  unfold k0_pay11
  dsimp only
  rw [addf_apply, addf_apply, h23,
    weigh v33 _ (aggIn adj x 2#32) W 1 h33 (fun e d => (weights_apply v35 e d).trans (hW1 d e)) p d,
    weigh _ _ (aggIn adj x 3#32) W 2
      (fun p e => gather_in _ _ adj x 3#32 (fun p q => (ind3_apply v4 (ix2 p q)).trans (by rw [h4])) h2 p e)
      (fun e d => (weights_apply v56 e d).trans (hW2 d e)) p d]

/-- The outgoing sum after class 3. -/
theorem after3_out (v2 : FVec Ideal S1024x64 .bf16) (v4 : IVec S1024x1024 32) (v27 v34 : FVec Ideal S1024x64 .f32)
    (v38 v59 : Vec Ideal S1x64x64 .f32) (adj : Fin 1024 → Fin 1024 → BitVec 32) (x : Fin 1024 → Fin 64 → EReal)
    (W : Fin 4 → Fin 64 → Fin 64 → EReal) (t1 : Fin 1024 → Fin 64 → EReal)
    (h4 : ∀ p q, v4 (ix2 p q) = adj p q) (h2 : ∀ q e, v2 (ix2 q e) = x q e) (h27 : ∀ p d, v27 (ix2 p d) = t1 p d)
    (h34 : ∀ p e, v34 (ix2 p e) = aggOut adj x 2#32 p e)
    (hW1 : ∀ d e, v38 (ix3 0 d e) = W 1 d e) (hW2 : ∀ d e, v59 (ix3 0 d e) = W 2 d e) (p : Fin 1024) (d : Fin 64) :
    k0_pay12 (F := Ideal) v2 v4 v27 v34 v38 v59 (ix2 p d)
      = (t1 p d + through (aggOut adj x 2#32 p) W 1 d) + through (aggOut adj x 3#32 p) W 2 d := by
  unfold k0_pay12
  dsimp only
  rw [addf_apply, addf_apply, h27,
    weigh v34 _ (aggOut adj x 2#32) W 1 h34 (fun e d => (weights_apply v38 e d).trans (hW1 d e)) p d,
    weigh _ _ (aggOut adj x 3#32) W 2
      (fun p e => gather_out _ _ adj x 3#32 (fun p q => (ind3_apply v4 (ix2 p q)).trans (by rw [h4])) h2 p e)
      (fun e d => (weights_apply v59 e d).trans (hW2 d e)) p d]

/-! ## Class 4's incoming gathered features -/

theorem gathered4_in (v2 : FVec Ideal S1024x64 .bf16) (v4 : IVec S1024x1024 32)
    (adj : Fin 1024 → Fin 1024 → BitVec 32) (x : Fin 1024 → Fin 64 → EReal)
    (h4 : ∀ p q, v4 (ix2 p q) = adj p q) (h2 : ∀ q e, v2 (ix2 q e) = x q e) (p : Fin 1024) (e : Fin 64) :
    k0_pay14 (F := Ideal) v2 v4 (ix2 p e) = aggIn adj x 4#32 p e :=
  gather_in _ _ adj x 4#32 (fun p q => (ind4_apply v4 (ix2 p q)).trans (by rw [h4])) h2 p e

end Cert.KernelIdeal.Block

end
-- ==== Proof.KernelBlock.lean ====
/-
  What the message kernel's body stores over its output block: the specification's `outBlk` of the five input blocks.

  The stored value lays the two running sums side by side along the channel axis (channels below 64 are the incoming
  message, the others the outgoing one, each with class 4's term added last), adds the bias row to every node's row and
  restores the leading unit axis.
-/
import proofs.«175935_j73323681677623_1_alg».proof.Proof.KernelSums

noncomputable section

open scoped BigOperators

namespace Cert.KernelIdeal.Block

open Cert.KernelIdeal Cert.KernelIdeal.Gen Idealize.ShloMosaic Idealize.ShloMosaic.TcCoe Idealize.ShloMosaic.ValueIdx Cert.EdgeMsg

/-- The stored value at node `p`, channel `col`: class 4's term added to the running sum of the channel's half, plus
    the bias of the channel. -/
theorem stored_apply (v2 : FVec Ideal S1024x64 .bf16) (v65 v69 : FVec Ideal S1024x64 .f32) (v74 : FVec Ideal S1024x1024 .bf16)
    (v75 : FVec Ideal S1024x64 .f32) (v77 v80 : Vec Ideal S1x64x64 .f32) (v92 : Vec Ideal S128 .f32)
    (adj : Fin 1024 → Fin 1024 → BitVec 32) (x : Fin 1024 → Fin 64 → EReal)
    (Win Wout : Fin 4 → Fin 64 → Fin 64 → EReal) (bias : Fin 128 → EReal) (sIn sOut : Fin 1024 → Fin 64 → EReal)
    (h2 : ∀ q e, v2 (ix2 q e) = x q e) (h65 : ∀ p d, v65 (ix2 p d) = sIn p d) (h69 : ∀ p d, v69 (ix2 p d) = sOut p d)
    (h74 : ∀ p q, v74 (ix2 p q) = edge (adj p q) 4#32) (h75 : ∀ p e, v75 (ix2 p e) = aggIn adj x 4#32 p e)
    (hWin : ∀ d e, v77 (ix3 0 d e) = Win 3 d e) (hWout : ∀ d e, v80 (ix3 0 d e) = Wout 3 d e)
    (hb : ∀ col, v92 (ix1 col) = bias col) (u : Fin 1) (p : Fin 1024) (col : Fin 128) :
    k0_pay1 (F := Ideal) v2 v65 v69 v74 v75 v77 v80 v92 (ix3 u p col)
      = (if h : col.val < 64 then sIn p ⟨col.val, h⟩ + through (aggIn adj x 4#32 p) Win 3 ⟨col.val, h⟩
          else sOut p ⟨col.val - 64, by have := col.isLt; omega⟩
            + through (aggOut adj x 4#32 p) Wout 3 ⟨col.val - 64, by have := col.isLt; omega⟩) + bias col := by
  unfold k0_pay1
  dsimp only
  rw [shapeCast_ab_1ab_apply, addf_apply, broadcastTo_1b_ab_apply, shapeCast_a_1a_apply, hb]
  congr 1
  by_cases h : col.val < 64
  · rw [dif_pos h,
      concatenate_pair_apply_left (1 : Fin S1024x128.rank) _ _ concatenates_S1024x64_S1024x64_S1024x128_d1 (ix2 p col) rfl
        (ix2 p ⟨col.val, h⟩) (fun b => match b with | ⟨0, _⟩ => rfl | ⟨1, _⟩ => rfl),
      addf_apply, h65,
      weigh v75 _ (aggIn adj x 4#32) Win 3 h75 (fun e d => (weights_apply v77 e d).trans (hWin d e)) p ⟨col.val, h⟩]
  · have hc : col.val - 64 < 64 := by have := col.isLt; omega
    rw [dif_neg h,
      concatenate_pair_apply_right (1 : Fin S1024x128.rank) _ _ concatenates_S1024x64_S1024x64_S1024x128_d1 (ix2 p col) rfl rfl
        (ix2 p ⟨col.val - 64, hc⟩)
        (fun b => match b with | ⟨0, _⟩ => fun _ => rfl | ⟨1, _⟩ => fun hne => absurd rfl hne)
        (by show col.val - 64 + 64 = col.val; omega),
      addf_apply, h69,
      weigh _ _ (aggOut adj x 4#32) Wout 3 (fun p e => gather_out _ _ adj x 4#32 h74 h2 p e)
        (fun e d => (weights_apply v80 e d).trans (hWout d e)) p ⟨col.val - 64, hc⟩]

theorem zeros3 : (![0, 0, 0] : Fin 3 → Nat) = fun _ => 0 := funext fun a => by fin_cases a <;> rfl
theorem zeros1 : (![0] : Fin 1 → Nat) = fun _ => 0 := funext fun a => by fin_cases a <;> rfl

/-- THE BODY'S RESULT: the output block after the body is `outBlk` of the label block, the feature block, the two
    weight arrays and the bias. -/
theorem body_is_outBlk (x0 : Vec Ideal S1x1024x1024 .i32) (x1 : Vec Ideal S1x1024x64 .f32) (x2 x3 : Vec Ideal S4x64x64 .f32)
    (x4 : Vec Ideal S128 .f32) :
    out0_5 (F := Ideal) x0 x1 x2 x3 x4 = outBlk x0 x1 x2 x3 x4 := by
  unfold out0_5
  rw [View.canon_unit_zero zeros3]
  simp only [View.ld_unit_zero (S := S1x1024x64) zeros3, View.ld_unit_zero (S := S1x1024x1024) zeros3,
    View.ld_unit_zero (S := S128) zeros1]
  funext y
  obtain ⟨u, p, col, rfl⟩ : ∃ (u : Fin 1) (p : Fin 1024) (col : Fin 128), y = ix3 u p col := ⟨y 0, y 1, y 2, eq_ix3 y⟩
  refine (stored_apply _ _ _ _ _ _ _ _ (adjOf x0) (featOf x1) (wOf x2) (wOf x3) (bOf x4)
    (fun p d => (through (aggIn (adjOf x0) (featOf x1) 1#32 p) (wOf x2) 0 d + through (aggIn (adjOf x0) (featOf x1) 2#32 p) (wOf x2) 1 d)
      + through (aggIn (adjOf x0) (featOf x1) 3#32 p) (wOf x2) 2 d)
    (fun p d => (through (aggOut (adjOf x0) (featOf x1) 1#32 p) (wOf x3) 0 d + through (aggOut (adjOf x0) (featOf x1) 2#32 p) (wOf x3) 1 d)
      + through (aggOut (adjOf x0) (featOf x1) 3#32 p) (wOf x3) 2 d)
    (feats_apply x1)
    (after3_in _ _ _ _ _ _ (adjOf x0) (featOf x1) (wOf x2) _ (labels_apply x0) (feats_apply x1)
      (after1_in x1 x0 _ (wOf x2) (slab_apply x2 0 _)) (gathered2_in x1 x0) (slab_apply x2 1 _) (slab_apply x2 2 _))
    (after3_out _ _ _ _ _ _ (adjOf x0) (featOf x1) (wOf x3) _ (labels_apply x0) (feats_apply x1)
      (after1_out x1 x0 _ (wOf x3) (slab_apply x3 0 _)) (gathered2_out x1 x0) (slab_apply x3 1 _) (slab_apply x3 2 _))
    (fun p q => (ind4_apply _ (ix2 p q)).trans (by rw [labels_apply]))
    (gathered4_in _ _ (adjOf x0) (featOf x1) (labels_apply x0) (feats_apply x1))
    (slab_apply x2 3 _) (slab_apply x3 3 _) (fun _ => rfl) u p col).trans ?_
  rfl

end Cert.KernelIdeal.Block

end
-- ==== Proof.KernelWhole.lean ====
/-
  From the grid points' blocks to the whole result array.

  Grid point `t` of 16 works on graph `t`: its label block is rows `(t, ·, ·)` of the labels, its feature block rows
  `(t, ·, ·)` of the features, the weights and the bias come whole at every point, and it writes back rows `(t, ·, ·)`
  of the result. What it writes back is the specification's `outBlk` of those blocks, which is the specification's
  whole array `outArr` read through the point's output block; the sixteen output blocks tile the result, so after the
  run the result array is `outArr` of the five argument arrays.
-/
import proofs.«175935_j73323681677623_1_alg».proof.Proof.Gen.KernelIdeal.Value
import proofs.«175935_j73323681677623_1_alg».proof.Proof.KernelBlock

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.EdgeMsg Cert.KernelIdeal.Block
open Idealize.ShloMosaic.Pipeline (Dat)

/-- One graph's result from its blocks is the whole result at that graph's rows, when the blocks are the whole arrays'
    rows `(g, ·, ·)` and the weights and bias are the whole ones. -/
theorem outBlk_eq_outArr (feat : (⟨3, ![16, 1024, 64]⟩ : Shape).Idx → EReal) (adj : (⟨3, ![16, 1024, 1024]⟩ : Shape).Idx → BitVec 32)
    (Win Wout : (⟨3, ![4, 64, 64]⟩ : Shape).Idx → EReal) (b : (⟨1, ![128]⟩ : Shape).Idx → EReal)
    (adjB : (⟨3, ![1, 1024, 1024]⟩ : Shape).Idx → BitVec 32) (featB : (⟨3, ![1, 1024, 64]⟩ : Shape).Idx → EReal)
    (WinB WoutB : (⟨3, ![4, 64, 64]⟩ : Shape).Idx → EReal) (bB : (⟨1, ![128]⟩ : Shape).Idx → EReal) (g : Fin 16)
    (hadj : ∀ p q, adjB (ix3 0 p q) = adj (ix3 g p q)) (hfeat : ∀ q e, featB (ix3 0 q e) = feat (ix3 g q e))
    (hWin : WinB = Win) (hWout : WoutB = Wout) (hb : bB = b) (u : Fin 1) (p : Fin 1024) (col : Fin 128) :
    outBlk adjB featB WinB WoutB bB (ix3 u p col) = outArr feat adj Win Wout b (ix3 g p col) := by
  subst hWin hWout hb
  have e1 : (fun p q => adjB (ix3 0 p q)) = (fun p q => adj (ix3 g p q)) := funext fun p => funext fun q => hadj p q
  have e2 : (fun q e => featB (ix3 0 q e)) = (fun q e => feat (ix3 g q e)) := funext fun q => funext fun e => hfeat q e
  show row (fun p q => adjB (ix3 0 p q)) (fun q e => featB (ix3 0 q e)) _ _ _ p col
    = row (fun p q => adj (ix3 g p q)) (fun q e => feat (ix3 g q e)) _ _ _ p col
  rw [e1, e2]

variable (m : (ℓ : Loc nD τ sig) → Buf (Elt Ideal) ℓ) (ρ : Dev nD → PrngReg)

/-- The result the specification assigns to the argument arrays as launched. -/
abbrev result (c : Dev nD) : S16x1024x128.Idx → EReal :=
  outArr (V m c main_arg0) (V m c main_arg1) (V m c main_arg2) (V m c main_arg3) (V m c main_arg4)

/-- The printed index maps, decided over the sixteen grid points: the label and feature windows move with the output
    window along the graph axis and sit at zero elsewhere; the weight and bias windows sit at zero. -/
theorem index_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 3) ≤ 15 ∧ win0_5.index t (1 : Fin 3) = 0 ∧ win0_5.index t (2 : Fin 3) = 0 :=
  (by decide +kernel : ∀ t : Fin grid0.N, _)

/-- Every graph is some grid point's. -/
theorem index_onto : ∀ g : Fin 16, ∃ t : Fin cfg0.N, win0_5.index t = ![g.val, 0, 0] :=
  (by decide +kernel : ∀ g : Fin 16, ∃ t : Fin grid0.N, win0_5.index t = ![g.val, 0, 0])

/-- WHAT POINT `t` WRITES BACK is its block of the specification's result. -/
theorem flushed_is_result (c : Dev nD) (t : Fin cfg0.N) :
    (dats m 0 c).flushed 5 t = ((cfg0.win 5).blk t).view.read (Elt Ideal) (result m c) := by
  rw [flushed5]
  have hb := body_is_outBlk (iblk m c 0 t) (iblk m c 1 t) (iblk m c 2 t) (iblk m c 3 t) (iblk m c 4 t)
  rw [hb]
  obtain ⟨a0, a1, a2, b0, b1, b2, c0, c1, c2, d0, d1, d2, e0, f0, f1, f2⟩ := index_facts t
  funext j
  obtain ⟨u, p, col, rfl⟩ : ∃ (u : Fin 1) (p : Fin 1024) (col : Fin 128), j = ix3 u p col := ⟨j 0, j 1, j 2, eq_ix3 j⟩
  have hu : u.val = 0 := by omega
  show outBlk (iblk m c 0 t) (iblk m c 1 t) (iblk m c 2 t) (iblk m c 3 t) (iblk m c 4 t) (ix3 u p col)
    = result m c (((cfg0.win 5).blk t).view.emb (ix3 u p col))
  have hemb : ((cfg0.win 5).blk t).view.emb (ix3 u p col) = ix3 (⟨win0_5.index t (0 : Fin 3), by omega⟩ : Fin 16) p col := by
    funext a; apply Fin.ext
    match a with
    | ⟨0, _⟩ => show win0_5.index t (0 : Fin 3) * 1 + 1 * u.val = win0_5.index t (0 : Fin 3); omega
    | ⟨1, _⟩ => show win0_5.index t (1 : Fin 3) * 1024 + 1 * p.val = p.val; omega
    | ⟨2, _⟩ => show win0_5.index t (2 : Fin 3) * 128 + 1 * col.val = col.val; omega
  rw [hemb]
  refine outBlk_eq_outArr _ _ _ _ _ _ _ _ _ _ _ ?_ ?_ ?_ ?_ ?_ u p col
  · intro p q
    show V m c main_arg1 (((cfg0.win 0).blk t).view.emb (ix3 0 p q)) = V m c main_arg1 (ix3 _ p q)
    refine congrArg (V m c main_arg1) (funext fun a => Fin.ext ?_)
    match a with
    | ⟨0, _⟩ => show win0_0.index t (0 : Fin 3) * 1 + 1 * 0 = win0_5.index t (0 : Fin 3); omega
    | ⟨1, _⟩ => show win0_0.index t (1 : Fin 3) * 1024 + 1 * p.val = p.val; omega
    | ⟨2, _⟩ => show win0_0.index t (2 : Fin 3) * 1024 + 1 * q.val = q.val; omega
  · intro q e
    show V m c main_arg0 (((cfg0.win 1).blk t).view.emb (ix3 0 q e)) = V m c main_arg0 (ix3 _ q e)
    refine congrArg (V m c main_arg0) (funext fun a => Fin.ext ?_)
    match a with
    | ⟨0, _⟩ => show win0_1.index t (0 : Fin 3) * 1 + 1 * 0 = win0_5.index t (0 : Fin 3); omega
    | ⟨1, _⟩ => show win0_1.index t (1 : Fin 3) * 1024 + 1 * q.val = q.val; omega
    | ⟨2, _⟩ => show win0_1.index t (2 : Fin 3) * 64 + 1 * e.val = e.val; omega
  · funext y
    show V m c main_arg2 (((cfg0.win 2).blk t).view.emb y) = V m c main_arg2 y
    refine congrArg (V m c main_arg2) (funext fun a => Fin.ext ?_)
    match a with
    | ⟨0, _⟩ => show win0_2.index t (0 : Fin 3) * 4 + 1 * (y 0).val = (y 0).val; omega
    | ⟨1, _⟩ => show win0_2.index t (1 : Fin 3) * 64 + 1 * (y 1).val = (y 1).val; omega
    | ⟨2, _⟩ => show win0_2.index t (2 : Fin 3) * 64 + 1 * (y 2).val = (y 2).val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 3) * 4 + 1 * (y 0).val = (y 0).val; omega
    | ⟨1, _⟩ => show win0_3.index t (1 : Fin 3) * 64 + 1 * (y 1).val = (y 1).val; omega
    | ⟨2, _⟩ => show win0_3.index t (2 : Fin 3) * 64 + 1 * (y 2).val = (y 2).val; omega
  · funext y
    show V m c main_arg4 (((cfg0.win 4).blk t).view.emb y) = V m c main_arg4 y
    refine congrArg (V m c main_arg4) (funext fun a => Fin.ext ?_)
    match a with
    | ⟨0, _⟩ => show win0_4.index t (0 : Fin 1) * 128 + 1 * (y 0).val = (y 0).val; omega

/-- An index of the result is in point `t`'s output block iff each coordinate is in the block's range on its axis. -/
theorem mem_out_block (t : Fin cfg0.N) (i : S16x1024x128.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v0).slice (win0_5.rect t)).set ↔ _
  rw [View.set_slice_whole, Rect.mem_set_unit]
  exact Iff.rfl

/-- The sixteen output blocks cover the result: index `(g, p, col)` is in the block of the point that handles graph `g`. -/
theorem out_blocks_cover (i : S16x1024x128.Idx) :
    ∃ t : Fin cfg0.N, (cfg0.win 5).flush t = true ∧ i ∈ ((cfg0.win 5).blk t).view.set := by
  obtain ⟨t, ht⟩ := index_onto (i 0)
  have q0 : win0_5.index t (0 : Fin 3) = (i 0).val := congrFun ht 0
  have q1 : win0_5.index t (1 : Fin 3) = 0 := congrFun ht 1
  have q2 : win0_5.index t (2 : Fin 3) = 0 := congrFun ht 2
  have hi1 : (i 1).val < 1024 := (i 1).isLt
  have hi2 : (i 2).val < 128 := (i 2).isLt
  refine ⟨t, flush0_5 t, ?_⟩
  rw [mem_out_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- THE RESULT ARRAY after the run is the specification's function of the argument arrays. -/
theorem final_is_result (c : Dev nD) : (dats m 0 c).arrAt 5 cfg0.N = result m c :=
  (dats m 0 c).arrAt_eq_of_cover 5 (result m c) (fun t _ => flushed_is_result m c t) out_blocks_cover

/-- The kernel's run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v0) = outArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_is_result m c), (h c).2⟩) (run_blocks m ρ)

end Cert.KernelIdeal.Whole

end
-- ==== Proof.RefSide.lean ====
/-
  The reference's result array is the specification's `outArr` of its five arguments.

  The reference handles each edge class on all sixteen graphs at once: the 0/1 array "label = class" (for the outgoing
  message, on the labels with their two node axes exchanged) times the features, batched over the graphs; that times
  the class's weight matrix, contracted along the input channel; the four classes added in order onto a zero array;
  then the two messages side by side along the channel axis and the bias added to every row. Read at one entry
  `(g, p, col)`, operation by operation, these are the sums the specification names `aggIn`, `aggOut`, `through`,
  `msg` and `row` for graph `g`.
-/
import proofs.«175935_j73323681677623_1_alg».proof.Proof.Gen.ReferenceIdeal.Read
import proofs.«175935_j73323681677623_1_alg».proof.Proof.EdgeMsgSpec
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.TcCoe
  Idealize.ShloMosaic.ValueIdx Idealize.SL.Sem Idealize.ShloMosaic.StableHlo

/-! ## Indices -/

/-- A rank-3 index is determined by the values of its three coordinates. -/
theorem idx3_eq {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun t => Fin.ext (by
    match t with
    | ⟨0, _⟩ => exact h0
    | ⟨1, _⟩ => exact h1
    | ⟨2, _⟩ => exact h2)

/-! ## Gathering along the edges of one class

The reference forms, per class, the 0/1 array "label = class" and multiplies it, graph by graph, into the features:
entry `(g, p, e)` is `Σ_q [label (g, p, q) = class] · feat (g, q, e)`. -/

/-- The batched product of a mask with the features, read at node `p`, channel `e` of graph `g`: if the mask is the
    indicator of "label = cls" on the label array `adj`, the product is the gathering `aggIn` of graph `g`'s features
    along the edges of class `cls`, the labels read as `adj (g, p, q)`. -/
theorem agg_of_mask (x0 : S16x1024x64.Idx → EReal) (adj : S16x1024x1024.Idx → BitVec 32) (cls : BitVec 32)
    (m : S16x1024x1024.Idx → EReal)
    (hm : ∀ j, m j = FloatOps.uitofp (F := Ideal) .f32 (IntOp.cmpi .eq (adj j) cls))
    (g : Fin 16) (p : Fin 1024) (e : Fin 64) :
    ∑ k : Fin 1024, m (lidx_main_v4 (ix3 g p e) k) * x0 (ridx_main_v4 (ix3 g p e) k)
      = Cert.EdgeMsg.aggIn (fun p q => adj (ix3 g p q)) (fun q e => x0 (ix3 g q e)) cls p e := by
  unfold Cert.EdgeMsg.aggIn Cert.EdgeMsg.edge
  refine Finset.sum_congr rfl fun k _ => ?_
  have el : lidx_main_v4 (ix3 g p e) k = ix3 g p k := idx3_eq _ _ _ _ rfl rfl rfl
  have er : ridx_main_v4 (ix3 g p e) k = ix3 g k e := idx3_eq _ _ _ _ rfl rfl rfl
  rw [el, er, hm]

/-- Gathering with the labels transposed (entry `(g, p, q)` of the transposed array is `label (g, q, p)`) is the
    gathering read the other way round, `aggOut`. -/
theorem aggIn_transposed (x1 : (⟨S16x1024x1024, .i32⟩ : BufTy).Contents (Elt Ideal)) (x : Fin 1024 → Fin 64 → EReal) (cls : BitVec 32)
    (g : Fin 16) (p : Fin 1024) (e : Fin 64) :
    Cert.EdgeMsg.aggIn (fun p q => val_main_v33 (F := Ideal) x1 (ix3 g p q)) x cls p e
      = Cert.EdgeMsg.aggOut (fun p q => x1 (ix3 g p q)) x cls p e := by
  unfold Cert.EdgeMsg.aggIn Cert.EdgeMsg.aggOut
  refine Finset.sum_congr rfl fun q _ => ?_
  have et : idx_main_v33 (ix3 g p q) = ix3 g q p := idx3_eq _ _ _ _ rfl rfl rfl
  show Cert.EdgeMsg.edge (val_main_v33 (F := Ideal) x1 (ix3 g p q)) cls * x q e
    = Cert.EdgeMsg.edge (x1 (ix3 g q p)) cls * x q e
  rw [val_main_v33_apply, et]

/-- Incoming, class 1. -/
theorem v4_eq (x0 : (⟨S16x1024x64, .f32⟩ : BufTy).Contents (Elt Ideal)) (x1 : (⟨S16x1024x1024, .i32⟩ : BufTy).Contents (Elt Ideal)) (g : Fin 16) (p : Fin 1024) (e : Fin 64) :
    val_main_v4 (F := Ideal) x0 x1 (ix3 g p e)
      = Cert.EdgeMsg.aggIn (fun p q => x1 (ix3 g p q)) (fun q e => x0 (ix3 g q e)) 1#32 p e := by
  rw [val_main_v4_apply]
  exact agg_of_mask x0 x1 1#32 (val_main_v3 (F := Ideal) x1) (fun j => rfl) g p e

/-- Incoming, class 2. -/
theorem v12_eq (x0 : (⟨S16x1024x64, .f32⟩ : BufTy).Contents (Elt Ideal)) (x1 : (⟨S16x1024x1024, .i32⟩ : BufTy).Contents (Elt Ideal)) (g : Fin 16) (p : Fin 1024) (e : Fin 64) :
    val_main_v12 (F := Ideal) x0 x1 (ix3 g p e)
      = Cert.EdgeMsg.aggIn (fun p q => x1 (ix3 g p q)) (fun q e => x0 (ix3 g q e)) 2#32 p e := by
  rw [val_main_v12_apply]
  exact agg_of_mask x0 x1 2#32 (val_main_v11 (F := Ideal) x1) (fun j => rfl) g p e

/-- Incoming, class 3. -/
theorem v20_eq (x0 : (⟨S16x1024x64, .f32⟩ : BufTy).Contents (Elt Ideal)) (x1 : (⟨S16x1024x1024, .i32⟩ : BufTy).Contents (Elt Ideal)) (g : Fin 16) (p : Fin 1024) (e : Fin 64) :
    val_main_v20 (F := Ideal) x0 x1 (ix3 g p e)
      = Cert.EdgeMsg.aggIn (fun p q => x1 (ix3 g p q)) (fun q e => x0 (ix3 g q e)) 3#32 p e := by
  rw [val_main_v20_apply]
  exact agg_of_mask x0 x1 3#32 (val_main_v19 (F := Ideal) x1) (fun j => rfl) g p e

/-- Incoming, class 4. -/
theorem v28_eq (x0 : (⟨S16x1024x64, .f32⟩ : BufTy).Contents (Elt Ideal)) (x1 : (⟨S16x1024x1024, .i32⟩ : BufTy).Contents (Elt Ideal)) (g : Fin 16) (p : Fin 1024) (e : Fin 64) :
    val_main_v28 (F := Ideal) x0 x1 (ix3 g p e)
      = Cert.EdgeMsg.aggIn (fun p q => x1 (ix3 g p q)) (fun q e => x0 (ix3 g q e)) 4#32 p e := by
  rw [val_main_v28_apply]
  exact agg_of_mask x0 x1 4#32 (val_main_v27 (F := Ideal) x1) (fun j => rfl) g p e

/-- Outgoing, class 1: the mask is taken on the transposed labels. -/
theorem v38_eq (x0 : (⟨S16x1024x64, .f32⟩ : BufTy).Contents (Elt Ideal)) (x1 : (⟨S16x1024x1024, .i32⟩ : BufTy).Contents (Elt Ideal)) (g : Fin 16) (p : Fin 1024) (e : Fin 64) :
    val_main_v38 (F := Ideal) x0 x1 (ix3 g p e)
      = Cert.EdgeMsg.aggOut (fun p q => x1 (ix3 g p q)) (fun q e => x0 (ix3 g q e)) 1#32 p e := by
  rw [val_main_v38_apply, ← aggIn_transposed]
  exact agg_of_mask x0 (val_main_v33 (F := Ideal) x1) 1#32 (val_main_v37 (F := Ideal) x1) (fun j => rfl) g p e

/-- Outgoing, class 2. -/
theorem v46_eq (x0 : (⟨S16x1024x64, .f32⟩ : BufTy).Contents (Elt Ideal)) (x1 : (⟨S16x1024x1024, .i32⟩ : BufTy).Contents (Elt Ideal)) (g : Fin 16) (p : Fin 1024) (e : Fin 64) :
    val_main_v46 (F := Ideal) x0 x1 (ix3 g p e)
      = Cert.EdgeMsg.aggOut (fun p q => x1 (ix3 g p q)) (fun q e => x0 (ix3 g q e)) 2#32 p e := by
  rw [val_main_v46_apply, ← aggIn_transposed]
  exact agg_of_mask x0 (val_main_v33 (F := Ideal) x1) 2#32 (val_main_v45 (F := Ideal) x1) (fun j => rfl) g p e

/-- Outgoing, class 3. -/
theorem v54_eq (x0 : (⟨S16x1024x64, .f32⟩ : BufTy).Contents (Elt Ideal)) (x1 : (⟨S16x1024x1024, .i32⟩ : BufTy).Contents (Elt Ideal)) (g : Fin 16) (p : Fin 1024) (e : Fin 64) :
    val_main_v54 (F := Ideal) x0 x1 (ix3 g p e)
      = Cert.EdgeMsg.aggOut (fun p q => x1 (ix3 g p q)) (fun q e => x0 (ix3 g q e)) 3#32 p e := by
  rw [val_main_v54_apply, ← aggIn_transposed]
  exact agg_of_mask x0 (val_main_v33 (F := Ideal) x1) 3#32 (val_main_v53 (F := Ideal) x1) (fun j => rfl) g p e

/-- Outgoing, class 4. -/
theorem v62_eq (x0 : (⟨S16x1024x64, .f32⟩ : BufTy).Contents (Elt Ideal)) (x1 : (⟨S16x1024x1024, .i32⟩ : BufTy).Contents (Elt Ideal)) (g : Fin 16) (p : Fin 1024) (e : Fin 64) :
    val_main_v62 (F := Ideal) x0 x1 (ix3 g p e)
      = Cert.EdgeMsg.aggOut (fun p q => x1 (ix3 g p q)) (fun q e => x0 (ix3 g q e)) 4#32 p e := by
  rw [val_main_v62_apply, ← aggIn_transposed]
  exact agg_of_mask x0 (val_main_v33 (F := Ideal) x1) 4#32 (val_main_v61 (F := Ideal) x1) (fun j => rfl) g p e

/-! ## One class's weight matrix

The reference cuts class `c`'s 64 × 64 matrix out of the weights (`W[c:c+1]`, then the leading axis of extent one is
dropped): entry `(d, e)` of the result is `W (c, d, e)`. Dropping the axis renumbers `(d, e)` through the row-major
position `d · 64 + e`, whose quotient and remainder by 64 are `d` and `e` again. -/

/-- Class 1 of the incoming weights. -/
theorem v6_eq (x2 : (⟨S4x64x64, .f32⟩ : BufTy).Contents (Elt Ideal)) (d e : Fin 64) : val_main_v6 (F := Ideal) x2 (ix2 d e) = x2 (ix3 0 d e) := by
  rw [val_main_v6_apply, val_main_v5_apply]
  congr 1
  have hd := d.isLt
  have he := e.isLt
  refine idx3_eq _ _ _ _ rfl ?_ ?_
  · show (d.val * 64 + e.val) / 64 % 64 = d.val; omega
  · show (d.val * 64 + e.val) % 64 = e.val; omega

/-- Class 2 of the incoming weights. -/
theorem v14_eq (x2 : (⟨S4x64x64, .f32⟩ : BufTy).Contents (Elt Ideal)) (d e : Fin 64) : val_main_v14 (F := Ideal) x2 (ix2 d e) = x2 (ix3 1 d e) := by
  rw [val_main_v14_apply, val_main_v13_apply]
  congr 1
  have hd := d.isLt
  have he := e.isLt
  refine idx3_eq _ _ _ _ rfl ?_ ?_
  · show (d.val * 64 + e.val) / 64 % 64 = d.val; omega
  · show (d.val * 64 + e.val) % 64 = e.val; omega

/-- Class 3 of the incoming weights. -/
theorem v22_eq (x2 : (⟨S4x64x64, .f32⟩ : BufTy).Contents (Elt Ideal)) (d e : Fin 64) : val_main_v22 (F := Ideal) x2 (ix2 d e) = x2 (ix3 2 d e) := by
  rw [val_main_v22_apply, val_main_v21_apply]
  congr 1
  have hd := d.isLt
  have he := e.isLt
  refine idx3_eq _ _ _ _ rfl ?_ ?_
  · show (d.val * 64 + e.val) / 64 % 64 = d.val; omega
  · show (d.val * 64 + e.val) % 64 = e.val; omega

/-- Class 4 of the incoming weights. -/
theorem v30_eq (x2 : (⟨S4x64x64, .f32⟩ : BufTy).Contents (Elt Ideal)) (d e : Fin 64) : val_main_v30 (F := Ideal) x2 (ix2 d e) = x2 (ix3 3 d e) := by
  rw [val_main_v30_apply, val_main_v29_apply]
  congr 1
  have hd := d.isLt
  have he := e.isLt
  refine idx3_eq _ _ _ _ rfl ?_ ?_
  · show (d.val * 64 + e.val) / 64 % 64 = d.val; omega
  · show (d.val * 64 + e.val) % 64 = e.val; omega

/-- Class 1 of the outgoing weights. -/
theorem v40_eq (x3 : (⟨S4x64x64, .f32⟩ : BufTy).Contents (Elt Ideal)) (d e : Fin 64) : val_main_v40 (F := Ideal) x3 (ix2 d e) = x3 (ix3 0 d e) := by
  rw [val_main_v40_apply, val_main_v39_apply]
  congr 1
  have hd := d.isLt
  have he := e.isLt
  refine idx3_eq _ _ _ _ rfl ?_ ?_
  · show (d.val * 64 + e.val) / 64 % 64 = d.val; omega
  · show (d.val * 64 + e.val) % 64 = e.val; omega

/-- Class 2 of the outgoing weights. -/
theorem v48_eq (x3 : (⟨S4x64x64, .f32⟩ : BufTy).Contents (Elt Ideal)) (d e : Fin 64) : val_main_v48 (F := Ideal) x3 (ix2 d e) = x3 (ix3 1 d e) := by
  rw [val_main_v48_apply, val_main_v47_apply]
  congr 1
  have hd := d.isLt
  have he := e.isLt
  refine idx3_eq _ _ _ _ rfl ?_ ?_
  · show (d.val * 64 + e.val) / 64 % 64 = d.val; omega
  · show (d.val * 64 + e.val) % 64 = e.val; omega

/-- Class 3 of the outgoing weights. -/
theorem v56_eq (x3 : (⟨S4x64x64, .f32⟩ : BufTy).Contents (Elt Ideal)) (d e : Fin 64) : val_main_v56 (F := Ideal) x3 (ix2 d e) = x3 (ix3 2 d e) := by
  rw [val_main_v56_apply, val_main_v55_apply]
  congr 1
  have hd := d.isLt
  have he := e.isLt
  refine idx3_eq _ _ _ _ rfl ?_ ?_
  · show (d.val * 64 + e.val) / 64 % 64 = d.val; omega
  · show (d.val * 64 + e.val) % 64 = e.val; omega

/-- Class 4 of the outgoing weights. -/
theorem v64_eq (x3 : (⟨S4x64x64, .f32⟩ : BufTy).Contents (Elt Ideal)) (d e : Fin 64) : val_main_v64 (F := Ideal) x3 (ix2 d e) = x3 (ix3 3 d e) := by
  rw [val_main_v64_apply, val_main_v63_apply]
  congr 1
  have hd := d.isLt
  have he := e.isLt
  refine idx3_eq _ _ _ _ rfl ?_ ?_
  · show (d.val * 64 + e.val) / 64 % 64 = d.val; omega
  · show (d.val * 64 + e.val) % 64 = e.val; omega

/-! ## Gathered features through a class's weights

Entry `(g, p, d)` of the product of the gathered features with the class's matrix is `Σ_e gathered (g, p, e) · W (c, d, e)`:
the matrix is contracted along its SECOND axis. -/

/-- If the left operand's row `(g, p, ·)` is `gf` and the right operand is class `c`'s matrix of `W`, the product at
    `(g, p, d)` is `through gf W c d`. -/
theorem through_of (a : S16x1024x64.Idx → EReal) (w : S64x64.Idx → EReal) (W : S4x64x64.Idx → EReal) (c : Fin 4)
    (g : Fin 16) (p : Fin 1024) (gf : Fin 64 → EReal)
    (ha : ∀ e : Fin 64, a (ix3 g p e) = gf e) (hw : ∀ d e : Fin 64, w (ix2 d e) = W (ix3 c d e)) (d : Fin 64) :
    ∑ k : Fin 64, a (lidx_main_v7 (ix3 g p d) k) * w (ridx_main_v7 (ix3 g p d) k)
      = Cert.EdgeMsg.through gf (Cert.EdgeMsg.wOf W) c d := by
  unfold Cert.EdgeMsg.through
  refine Finset.sum_congr rfl fun k _ => ?_
  have el : lidx_main_v7 (ix3 g p d) k = ix3 g p k := idx3_eq _ _ _ _ rfl rfl rfl
  have er : ridx_main_v7 (ix3 g p d) k = ix2 d k := funext fun t => Fin.ext (by
    match t with
    | ⟨0, _⟩ => rfl
    | ⟨1, _⟩ => rfl)
  rw [el, er, ha, hw]

/-- Incoming, class 1. -/
theorem v7_eq (x0 : (⟨S16x1024x64, .f32⟩ : BufTy).Contents (Elt Ideal)) (x1 : (⟨S16x1024x1024, .i32⟩ : BufTy).Contents (Elt Ideal)) (x2 : (⟨S4x64x64, .f32⟩ : BufTy).Contents (Elt Ideal)) (g : Fin 16) (p : Fin 1024) (d : Fin 64) :
    val_main_v7 (F := Ideal) x0 x1 x2 (ix3 g p d)
      = Cert.EdgeMsg.through (Cert.EdgeMsg.aggIn (fun p q => x1 (ix3 g p q)) (fun q e => x0 (ix3 g q e)) 1#32 p) (Cert.EdgeMsg.wOf x2) 0 d := by
  rw [val_main_v7_apply]
  exact through_of (val_main_v4 (F := Ideal) x0 x1) (val_main_v6 (F := Ideal) x2) x2 0 g p _
    (fun e => v4_eq x0 x1 g p e) (fun d e => v6_eq x2 d e) d

/-- Incoming, class 2. -/
theorem v15_eq (x0 : (⟨S16x1024x64, .f32⟩ : BufTy).Contents (Elt Ideal)) (x1 : (⟨S16x1024x1024, .i32⟩ : BufTy).Contents (Elt Ideal)) (x2 : (⟨S4x64x64, .f32⟩ : BufTy).Contents (Elt Ideal)) (g : Fin 16) (p : Fin 1024) (d : Fin 64) :
    val_main_v15 (F := Ideal) x0 x1 x2 (ix3 g p d)
      = Cert.EdgeMsg.through (Cert.EdgeMsg.aggIn (fun p q => x1 (ix3 g p q)) (fun q e => x0 (ix3 g q e)) 2#32 p) (Cert.EdgeMsg.wOf x2) 1 d := by
  rw [val_main_v15_apply]
  exact through_of (val_main_v12 (F := Ideal) x0 x1) (val_main_v14 (F := Ideal) x2) x2 1 g p _
    (fun e => v12_eq x0 x1 g p e) (fun d e => v14_eq x2 d e) d

/-- Incoming, class 3. -/
theorem v23_eq (x0 : (⟨S16x1024x64, .f32⟩ : BufTy).Contents (Elt Ideal)) (x1 : (⟨S16x1024x1024, .i32⟩ : BufTy).Contents (Elt Ideal)) (x2 : (⟨S4x64x64, .f32⟩ : BufTy).Contents (Elt Ideal)) (g : Fin 16) (p : Fin 1024) (d : Fin 64) :
    val_main_v23 (F := Ideal) x0 x1 x2 (ix3 g p d)
      = Cert.EdgeMsg.through (Cert.EdgeMsg.aggIn (fun p q => x1 (ix3 g p q)) (fun q e => x0 (ix3 g q e)) 3#32 p) (Cert.EdgeMsg.wOf x2) 2 d := by
  rw [val_main_v23_apply]
  exact through_of (val_main_v20 (F := Ideal) x0 x1) (val_main_v22 (F := Ideal) x2) x2 2 g p _
    (fun e => v20_eq x0 x1 g p e) (fun d e => v22_eq x2 d e) d

/-- Incoming, class 4. -/
theorem v31_eq (x0 : (⟨S16x1024x64, .f32⟩ : BufTy).Contents (Elt Ideal)) (x1 : (⟨S16x1024x1024, .i32⟩ : BufTy).Contents (Elt Ideal)) (x2 : (⟨S4x64x64, .f32⟩ : BufTy).Contents (Elt Ideal)) (g : Fin 16) (p : Fin 1024) (d : Fin 64) :
    val_main_v31 (F := Ideal) x0 x1 x2 (ix3 g p d)
      = Cert.EdgeMsg.through (Cert.EdgeMsg.aggIn (fun p q => x1 (ix3 g p q)) (fun q e => x0 (ix3 g q e)) 4#32 p) (Cert.EdgeMsg.wOf x2) 3 d := by
  rw [val_main_v31_apply]
  exact through_of (val_main_v28 (F := Ideal) x0 x1) (val_main_v30 (F := Ideal) x2) x2 3 g p _
    (fun e => v28_eq x0 x1 g p e) (fun d e => v30_eq x2 d e) d

/-- Outgoing, class 1. -/
theorem v41_eq (x0 : (⟨S16x1024x64, .f32⟩ : BufTy).Contents (Elt Ideal)) (x1 : (⟨S16x1024x1024, .i32⟩ : BufTy).Contents (Elt Ideal)) (x3 : (⟨S4x64x64, .f32⟩ : BufTy).Contents (Elt Ideal)) (g : Fin 16) (p : Fin 1024) (d : Fin 64) :
    val_main_v41 (F := Ideal) x0 x1 x3 (ix3 g p d)
      = Cert.EdgeMsg.through (Cert.EdgeMsg.aggOut (fun p q => x1 (ix3 g p q)) (fun q e => x0 (ix3 g q e)) 1#32 p) (Cert.EdgeMsg.wOf x3) 0 d := by
  rw [val_main_v41_apply]
  exact through_of (val_main_v38 (F := Ideal) x0 x1) (val_main_v40 (F := Ideal) x3) x3 0 g p _
    (fun e => v38_eq x0 x1 g p e) (fun d e => v40_eq x3 d e) d

/-- Outgoing, class 2. -/
theorem v49_eq (x0 : (⟨S16x1024x64, .f32⟩ : BufTy).Contents (Elt Ideal)) (x1 : (⟨S16x1024x1024, .i32⟩ : BufTy).Contents (Elt Ideal)) (x3 : (⟨S4x64x64, .f32⟩ : BufTy).Contents (Elt Ideal)) (g : Fin 16) (p : Fin 1024) (d : Fin 64) :
    val_main_v49 (F := Ideal) x0 x1 x3 (ix3 g p d)
      = Cert.EdgeMsg.through (Cert.EdgeMsg.aggOut (fun p q => x1 (ix3 g p q)) (fun q e => x0 (ix3 g q e)) 2#32 p) (Cert.EdgeMsg.wOf x3) 1 d := by
  rw [val_main_v49_apply]
  exact through_of (val_main_v46 (F := Ideal) x0 x1) (val_main_v48 (F := Ideal) x3) x3 1 g p _
    (fun e => v46_eq x0 x1 g p e) (fun d e => v48_eq x3 d e) d

/-- Outgoing, class 3. -/
theorem v57_eq (x0 : (⟨S16x1024x64, .f32⟩ : BufTy).Contents (Elt Ideal)) (x1 : (⟨S16x1024x1024, .i32⟩ : BufTy).Contents (Elt Ideal)) (x3 : (⟨S4x64x64, .f32⟩ : BufTy).Contents (Elt Ideal)) (g : Fin 16) (p : Fin 1024) (d : Fin 64) :
    val_main_v57 (F := Ideal) x0 x1 x3 (ix3 g p d)
      = Cert.EdgeMsg.through (Cert.EdgeMsg.aggOut (fun p q => x1 (ix3 g p q)) (fun q e => x0 (ix3 g q e)) 3#32 p) (Cert.EdgeMsg.wOf x3) 2 d := by
  rw [val_main_v57_apply]
  exact through_of (val_main_v54 (F := Ideal) x0 x1) (val_main_v56 (F := Ideal) x3) x3 2 g p _
    (fun e => v54_eq x0 x1 g p e) (fun d e => v56_eq x3 d e) d

/-- Outgoing, class 4. -/
theorem v65_eq (x0 : (⟨S16x1024x64, .f32⟩ : BufTy).Contents (Elt Ideal)) (x1 : (⟨S16x1024x1024, .i32⟩ : BufTy).Contents (Elt Ideal)) (x3 : (⟨S4x64x64, .f32⟩ : BufTy).Contents (Elt Ideal)) (g : Fin 16) (p : Fin 1024) (d : Fin 64) :
    val_main_v65 (F := Ideal) x0 x1 x3 (ix3 g p d)
      = Cert.EdgeMsg.through (Cert.EdgeMsg.aggOut (fun p q => x1 (ix3 g p q)) (fun q e => x0 (ix3 g q e)) 4#32 p) (Cert.EdgeMsg.wOf x3) 3 d := by
  rw [val_main_v65_apply]
  exact through_of (val_main_v62 (F := Ideal) x0 x1) (val_main_v64 (F := Ideal) x3) x3 3 g p _
    (fun e => v62_eq x0 x1 g p e) (fun d e => v64_eq x3 d e) d

/-! ## The four classes added in order

Each message starts from an array of zeros (the all-zero word is the extended real 0) and adds the classes' products
one after the other: `(((0 + t₁) + t₂) + t₃) + t₄`, which is `msg` once the leading zero is dropped. -/

/-- The zero array the incoming message starts from. -/
theorem v0_eq (i : S16x1024x64.Idx) : val_main_v0 (F := Ideal) i = (0 : EReal) := by
  rw [val_main_v0_apply, val_main_cst_apply, Ideal.ofBits_def, Ideal.ofBits_zero_f32]

/-- The zero array the outgoing message starts from. -/
theorem v34_eq (i : S16x1024x64.Idx) : val_main_v34 (F := Ideal) i = (0 : EReal) := by
  rw [val_main_v34_apply, val_main_cst_3_apply, Ideal.ofBits_def, Ideal.ofBits_zero_f32]

/-- The incoming message. -/
theorem v32_eq (x0 : (⟨S16x1024x64, .f32⟩ : BufTy).Contents (Elt Ideal)) (x1 : (⟨S16x1024x1024, .i32⟩ : BufTy).Contents (Elt Ideal)) (x2 : (⟨S4x64x64, .f32⟩ : BufTy).Contents (Elt Ideal)) (g : Fin 16) (p : Fin 1024) (d : Fin 64) :
    val_main_v32 (F := Ideal) x0 x1 x2 (ix3 g p d)
      = Cert.EdgeMsg.msg (fun cls => Cert.EdgeMsg.aggIn (fun p q => x1 (ix3 g p q)) (fun q e => x0 (ix3 g q e)) cls p) (Cert.EdgeMsg.wOf x2) d := by
  rw [val_main_v32_apply, val_main_v24_apply, val_main_v16_apply, val_main_v8_apply, v0_eq, v7_eq, v15_eq, v23_eq, v31_eq]
  simp only [Ideal.addf_def]
  rw [zero_add]
  rfl

/-- The outgoing message. -/
theorem v66_eq (x0 : (⟨S16x1024x64, .f32⟩ : BufTy).Contents (Elt Ideal)) (x1 : (⟨S16x1024x1024, .i32⟩ : BufTy).Contents (Elt Ideal)) (x3 : (⟨S4x64x64, .f32⟩ : BufTy).Contents (Elt Ideal)) (g : Fin 16) (p : Fin 1024) (d : Fin 64) :
    val_main_v66 (F := Ideal) x0 x1 x3 (ix3 g p d)
      = Cert.EdgeMsg.msg (fun cls => Cert.EdgeMsg.aggOut (fun p q => x1 (ix3 g p q)) (fun q e => x0 (ix3 g q e)) cls p) (Cert.EdgeMsg.wOf x3) d := by
  rw [val_main_v66_apply, val_main_v58_apply, val_main_v50_apply, val_main_v42_apply, v34_eq, v41_eq, v49_eq, v57_eq, v65_eq]
  simp only [Ideal.addf_def]
  rw [zero_add]
  rfl

/-! ## The two messages side by side, and the bias

Along the channel axis the first 64 channels are the incoming message and the next 64 the outgoing one, read at the
channel less 64. The bias is laid out over every graph and node, so entry `(g, p, col)` of it is `b col`. -/

/-- A channel below 64 reads the incoming message at that channel. -/
theorem v67_left (x0 : (⟨S16x1024x64, .f32⟩ : BufTy).Contents (Elt Ideal)) (x1 : (⟨S16x1024x1024, .i32⟩ : BufTy).Contents (Elt Ideal)) (x2 x3 : (⟨S4x64x64, .f32⟩ : BufTy).Contents (Elt Ideal)) (g : Fin 16) (p : Fin 1024) (col : Fin 128) (h : col.val < 64) :
    val_main_v67 (F := Ideal) x0 x1 x2 x3 (ix3 g p col) = val_main_v32 (F := Ideal) x0 x1 x2 (ix3 g p ⟨col.val, h⟩) := by
  unfold val_main_v67
  exact concatenate_pair_apply_left 2 _ _ concatenates_S16x1024x64_S16x1024x64_S16x1024x128_d2 (ix3 g p col) rfl
    (ix3 g p ⟨col.val, h⟩) (fun b => match b with
      | ⟨0, _⟩ => rfl
      | ⟨1, _⟩ => rfl
      | ⟨2, _⟩ => rfl)

/-- A channel from 64 on reads the outgoing message at the channel less 64. -/
theorem v67_right (x0 : (⟨S16x1024x64, .f32⟩ : BufTy).Contents (Elt Ideal)) (x1 : (⟨S16x1024x1024, .i32⟩ : BufTy).Contents (Elt Ideal)) (x2 x3 : (⟨S4x64x64, .f32⟩ : BufTy).Contents (Elt Ideal)) (g : Fin 16) (p : Fin 1024) (col : Fin 128) (h : ¬ col.val < 64)
    (h' : col.val - 64 < 64) :
    val_main_v67 (F := Ideal) x0 x1 x2 x3 (ix3 g p col) = val_main_v66 (F := Ideal) x0 x1 x3 (ix3 g p ⟨col.val - 64, h'⟩) := by
  unfold val_main_v67
  exact concatenate_pair_apply_right 2 _ _ concatenates_S16x1024x64_S16x1024x64_S16x1024x128_d2 (ix3 g p col) rfl rfl
    (ix3 g p ⟨col.val - 64, h'⟩) (fun b => match b with
      | ⟨0, _⟩ => fun _ => rfl
      | ⟨1, _⟩ => fun _ => rfl
      | ⟨2, _⟩ => fun hb => absurd rfl hb)
    (by show col.val - 64 + 64 = col.val; omega)

/-- The bias laid out over graphs and nodes. -/
theorem v69_eq (x4 : (⟨S128, .f32⟩ : BufTy).Contents (Elt Ideal)) (g : Fin 16) (p : Fin 1024) (col : Fin 128) :
    val_main_v69 (F := Ideal) x4 (ix3 g p col) = x4 (ix1 col) := by
  rw [val_main_v69_apply, val_main_v68_apply]
  congr 1
  funext a
  match a with
  | ⟨0, _⟩ => rfl

/-! ## The whole reference -/

/-- THE REFERENCE COMPUTES THE SPECIFICATION: its result array is `outArr` of its five arguments. -/
theorem ref_is_out (x0 : (⟨S16x1024x64, .f32⟩ : BufTy).Contents (Elt Ideal)) (x1 : (⟨S16x1024x1024, .i32⟩ : BufTy).Contents (Elt Ideal)) (x2 x3 : (⟨S4x64x64, .f32⟩ : BufTy).Contents (Elt Ideal)) (x4 : (⟨S128, .f32⟩ : BufTy).Contents (Elt Ideal)) :
    Cert.ReferenceIdeal.Read.val_main_v70 (F := Ideal) x0 x1 x2 x3 x4 = Cert.EdgeMsg.outArr x0 x1 x2 x3 x4 := by
  funext i
  obtain ⟨g, p, col, rfl⟩ : ∃ (g : Fin 16) (p : Fin 1024) (col : Fin 128), i = ix3 g p col := ⟨i 0, i 1, i 2, eq_ix3 i⟩
  rw [val_main_v70_apply, v69_eq]
  show FloatOps.addf (F := Ideal) (val_main_v67 (F := Ideal) x0 x1 x2 x3 (ix3 g p col)) (x4 (ix1 col))
    = Cert.EdgeMsg.row (fun p q => x1 (ix3 g p q)) (fun q e => x0 (ix3 g q e)) (Cert.EdgeMsg.wOf x2) (Cert.EdgeMsg.wOf x3)
        (Cert.EdgeMsg.bOf x4) p col
  unfold Cert.EdgeMsg.row
  by_cases h : col.val < 64
  · rw [dif_pos h, v67_left x0 x1 x2 x3 g p col h, v32_eq]
    rfl
  · rw [dif_neg h, v67_right x0 x1 x2 x3 g p col h (by have := col.isLt; omega), v66_eq]
    rfl

end Cert.RefSide

end
-- ==== Proof.lean ====
/-
  The edge-class message layer: a Pallas kernel against its jnp reference, equal over the extended reals.

  Both programs compute, for each of 16 graphs, each node `p` and each of 128 output channels, the specification's
  `row` (Proof/EdgeMsgSpec.lean): for the four edge classes in order, the features gathered along the class's edges
  (incoming for channels below 64, outgoing for the others) sent through the class's weight matrix, summed, plus a bias.
  The kernel does it graph by graph on a grid of 16 points, with the class indicator in a narrower float format (the
  identity on extended reals) and the outgoing gathering by contracting the SAME indicator along its other axis; the
  reference does it on all graphs at once, with the labels transposed for the outgoing side. No law beyond reading each
  operation at an index is needed (both sides add the same terms in the same order), so the precondition is never opened.

    Proof/KernelDots.lean, KernelPieces.lean, KernelSums.lean, KernelBlock.lean — the kernel's body: its output block is
      `outBlk` of its input blocks;
    Proof/KernelWhole.lean — the sixteen blocks tile the result: after the run the result array is `outArr` of the arguments;
    Proof/RefSide.lean — the reference's result is `outArr` of the arguments.
  The kernel's frames and the reference's run are the generated modules'; the idealization rewrote nothing, so the
  kernel's idealization is the kernel's own text read over the extended reals.
-/
import proofs.«175935_j73323681677623_1_alg».proof.Defs
import proofs.«175935_j73323681677623_1_alg».proof.Proof.Gen.Kernel
import proofs.«175935_j73323681677623_1_alg».proof.Proof.Gen.Kernel.Skeleton
import proofs.«175935_j73323681677623_1_alg».proof.Proof.Gen.Kernel.Launch
import proofs.«175935_j73323681677623_1_alg».proof.Proof.Gen.Kernel.Points
import proofs.«175935_j73323681677623_1_alg».proof.Proof.Gen.Kernel.Frame
import proofs.«175935_j73323681677623_1_alg».proof.Proof.Gen.KernelIdeal
import proofs.«175935_j73323681677623_1_alg».proof.Proof.Gen.KernelIdeal.Skeleton
import proofs.«175935_j73323681677623_1_alg».proof.Proof.Gen.KernelIdeal.Launch
import proofs.«175935_j73323681677623_1_alg».proof.Proof.Gen.KernelIdeal.Points
import proofs.«175935_j73323681677623_1_alg».proof.Proof.Gen.KernelIdeal.Frame
import proofs.«175935_j73323681677623_1_alg».proof.Proof.Gen.ReferenceIdeal
import proofs.«175935_j73323681677623_1_alg».proof.Proof.Gen.Pre_finite_inputs
import proofs.«175935_j73323681677623_1_alg».proof.Proof.Gen.KernelIdeal.Value
import proofs.«175935_j73323681677623_1_alg».proof.Proof.Gen.ReferenceIdeal.Run
import proofs.«175935_j73323681677623_1_alg».proof.Proof.Gen.ReferenceIdeal.Read
import proofs.«175935_j73323681677623_1_alg».proof.Proof.KernelWhole
import proofs.«175935_j73323681677623_1_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the result array at the specification's
    `outArr` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.RefSide.ref_is_out, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
